-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32000 : Shape := ⟨2, ![4096, 32000]⟩
abbrev S4096 : Shape := ⟨1, ![4096]⟩
abbrev S_ : Shape := ⟨0, ![]⟩

class Facts : Prop where
  bcast_S_S4096x32000 : S_.BroadcastsInDim S4096x32000 (![] : Fin 0 → Fin S4096x32000.rank)
  reducesTo_S4096x32000_S_d0_1 : S4096x32000.ReducesTo [0, 1] S_
  h_S_ : 0 < S_.numel

variable [Facts]

def fn {F : FTy → Type} [FloatOps F] (main_arg0 : FVec F S4096x32000 .f32) (main_arg1 : IVec S4096 32) : IVec S_ 1 :=
  let main_v0 : FVec F S4096x32000 .f32 := Host.absf main_arg0
  let main_cst : FVec F S_ .f32 := constant S_ .f32 0x7F800000#32
  let main_v1 : FVec F S4096x32000 .f32 := broadcastInDim S4096x32000 ![] bcast_S_S4096x32000 main_cst
  let main_v2 : IVec S4096x32000 1 := cmpf .olt main_v0 main_v1
  let main_c : IVec S_ 1 := constantI S_ 1 1#1
  let main_v3 : IVec S_ 1 := (fun x v => Host.reduce IntOp.andi x v reducesTo_S4096x32000_S_d0_1 h_S_) main_v2 main_c
  main_v3
-- ==== Kernel.lean ====
abbrev S4096x32000 : Shape := ⟨2, ![4096, 32000]⟩
abbrev S4096 : Shape := ⟨1, ![4096]⟩
abbrev S4096x1 : Shape := ⟨2, ![4096, 1]⟩
abbrev S64x32000 : Shape := ⟨2, ![64, 32000]⟩
abbrev S64x1 : Shape := ⟨2, ![64, 1]⟩
abbrev S64x6400 : Shape := ⟨2, ![64, 6400]⟩
abbrev S64 : Shape := ⟨1, ![64]⟩
abbrev S_ : Shape := ⟨0, ![]⟩
abbrev S32000 : Shape := ⟨1, ![32000]⟩

abbrev nBuf : Space → Nat
  | .hbm => 33
  | .vmem => 10
  | .smem => 0
  | _ => 0

abbrev bufTy : (tb : Table) → Fin (tcTables nBuf tb) → BufTy
  | .hbm, ⟨0, _⟩ => ⟨S4096x32000, .f32⟩
  | .hbm, ⟨1, _⟩ => ⟨S4096, .i32⟩
  | .hbm, ⟨2, _⟩ => ⟨S4096, .f32⟩
  | .hbm, ⟨3, _⟩ => ⟨S4096x1, .f32⟩
  | .hbm, ⟨4, _⟩ => ⟨S4096x1, .f32⟩
  | .hbm, ⟨5, _⟩ => ⟨S4096, .f32⟩
  | .hbm, ⟨6, _⟩ => ⟨S_, .f32⟩
  | .hbm, ⟨7, _⟩ => ⟨S4096, .f32⟩
  | .hbm, ⟨8, _⟩ => ⟨S_, .f32⟩
  | .hbm, ⟨9, _⟩ => ⟨S32000, .f32⟩
  | .hbm, ⟨10, _⟩ => ⟨S4096x1, .i32⟩
  | .hbm, ⟨11, _⟩ => ⟨S32000, .f32⟩
  | .hbm, ⟨12, _⟩ => ⟨S_, .f32⟩
  | .hbm, ⟨13, _⟩ => ⟨S32000, .f32⟩
  | .hbm, ⟨14, _⟩ => ⟨S4096x1, .i32⟩
  | .hbm, ⟨15, _⟩ => ⟨S32000, .f32⟩
  | .hbm, ⟨16, _⟩ => ⟨S_, .f32⟩
  | .hbm, ⟨17, _⟩ => ⟨S32000, .f32⟩
  | .hbm, ⟨18, _⟩ => ⟨S32000, .f32⟩
  | .hbm, ⟨19, _⟩ => ⟨S_, .f32⟩
  | .hbm, ⟨20, _⟩ => ⟨S32000, .f32⟩
  | .hbm, ⟨21, _⟩ => ⟨S32000, .f32⟩
  | .hbm, ⟨22, _⟩ => ⟨S_, .f32⟩
  | .hbm, ⟨23, _⟩ => ⟨S32000, .f32⟩
  | .hbm, ⟨24, _⟩ => ⟨S32000, .f32⟩
  | .hbm, ⟨25, _⟩ => ⟨S_, .f32⟩
  | .hbm, ⟨26, _⟩ => ⟨S32000, .f32⟩
  | .hbm, ⟨27, _⟩ => ⟨S32000, .f32⟩
  | .hbm, ⟨28, _⟩ => ⟨S32000, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .local _ .vmem, ⟨0, _⟩ => ⟨S64x32000, .f32⟩
  | .local _ .vmem, ⟨1, _⟩ => ⟨S64x32000, .f32⟩
  | .local _ .vmem, ⟨2, _⟩ => ⟨S64x1, .f32⟩
  | .local _ .vmem, ⟨3, _⟩ => ⟨S64x1, .f32⟩
  | .local _ .vmem, ⟨4, _⟩ => ⟨S64x1, .f32⟩
  | .local _ .vmem, ⟨5, _⟩ => ⟨S64x1, .f32⟩
  | .local _ .vmem, ⟨6, _⟩ => ⟨S64x1, .f32⟩
  | .local _ .vmem, ⟨7, _⟩ => ⟨S64x1, .f32⟩
  | .local _ .vmem, ⟨8, _⟩ => ⟨S64x1, .f32⟩
  | .local _ .vmem, ⟨9, _⟩ => ⟨S64x32000, .f32⟩
  | _, _ => ⟨S4096x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c5_i32 : BitVec 32 := 5#32
  let v4 : BitVec 32 := Scalar.addi c0_i32 c5_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c6400_i32 : BitVec 32 := 6400#32
  let v26 : BitVec 32 := Scalar.muli arg8 c6400_i32
  v26
def k0_off1 (k0_t1 : Fin k0_t1_loop.trips) : Fin 2 → Nat :=
  let c0_29 : Index := 0#32
  let c0_i32 : BitVec 32 := 0#32
  let c1_i32 : BitVec 32 := 1#32
  let arg8 : BitVec 32 := Scf.iv c0_i32 c1_i32 k0_t1
  let c6400_i32 : BitVec 32 := 6400#32
  let v26 : BitVec 32 := Scalar.muli arg8 c6400_i32
  let v27 : BitVec 32 := v26
  let v28 : Index := Scalar.indexCast v27
  ![0, v28.toNat]
@[reducible] def k0_t2_loop : Scf.Loop 32 :=
  let c0_i32_7 : BitVec 32 := 0#32
  let c5_i32_8 : BitVec 32 := 5#32
  let v10 : BitVec 32 := Scalar.addi c0_i32_7 c5_i32_8
  let c1_i32_9 : BitVec 32 := 1#32
  ⟨c0_i32_7, v10, c1_i32_9⟩
def k0_mult2 (k0_t2 : Fin k0_t2_loop.trips) : BitVec 32 :=
  let c0_i32_7 : BitVec 32 := 0#32
  let c1_i32_9 : BitVec 32 := 1#32
  let arg8 : BitVec 32 := Scf.iv c0_i32_7 c1_i32_9 k0_t2
  let c6400_i32 : BitVec 32 := 6400#32
  let v26 : BitVec 32 := Scalar.muli arg8 c6400_i32
  v26
def k0_off2 (k0_t2 : Fin k0_t2_loop.trips) : Fin 2 → Nat :=
  let c0_29 : Index := 0#32
  let c0_i32_7 : BitVec 32 := 0#32
  let c1_i32_9 : BitVec 32 := 1#32
  let arg8 : BitVec 32 := Scf.iv c0_i32_7 c1_i32_9 k0_t2
  let c6400_i32 : BitVec 32 := 6400#32
  let v26 : BitVec 32 := Scalar.muli arg8 c6400_i32
  let v27 : BitVec 32 := v26
  let v28 : Index := Scalar.indexCast v27
  ![0, v28.toNat]
@[reducible] def k0_t3_loop : Scf.Loop 32 :=
  let c0_i32_19 : BitVec 32 := 0#32
  let c5_i32_20 : BitVec 32 := 5#32
  let v20 : BitVec 32 := Scalar.addi c0_i32_19 c5_i32_20
  let c1_i32_21 : BitVec 32 := 1#32
  ⟨c0_i32_19, v20, c1_i32_21⟩
def k0_mult3 (k0_t3 : Fin k0_t3_loop.trips) : BitVec 32 :=
  let c0_i32_19 : BitVec 32 := 0#32
  let c1_i32_21 : BitVec 32 := 1#32
  let arg8 : BitVec 32 := Scf.iv c0_i32_19 c1_i32_21 k0_t3
  let c6400_i32 : BitVec 32 := 6400#32
  let v26 : BitVec 32 := Scalar.muli arg8 c6400_i32
  v26
def k0_off3 (k0_t3 : Fin k0_t3_loop.trips) : Fin 2 → Nat :=
  let c0_29 : Index := 0#32
  let c0_i32_19 : BitVec 32 := 0#32
  let c1_i32_21 : BitVec 32 := 1#32
  let arg8 : BitVec 32 := Scf.iv c0_i32_19 c1_i32_21 k0_t3
  let c6400_i32 : BitVec 32 := 6400#32
  let v26 : BitVec 32 := Scalar.muli arg8 c6400_i32
  let v27 : BitVec 32 := v26
  let v28 : Index := Scalar.indexCast v27
  ![0, v28.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4096_S4096x1 : S4096.ShapeCasts S4096x1
  inb_S64x1_S64x1_0_0 : ∀ a, (![0, 0] : Fin 2 → Nat) a + S64x1.size a ≤ S64x1.size a
  h_S64x1 : 0 < S64x1.numel
  shapeCasts_S64x1_S64x1 : S64x1.ShapeCasts S64x1
  h_S64x6400 : 0 < S64x6400.numel
  reduces_S64x6400_S64 : S64x6400.Reduces [1] S64
  shapeCasts_S64_S64x1 : S64.ShapeCasts S64x1
  broadcasts_S64x1_S64x6400 : S64x1.Broadcasts S64x6400
  shapeCasts_S64x6400_S64x6400 : S64x6400.ShapeCasts S64x6400
  shapeCasts_S4096x1_S4096 : S4096x1.ShapeCasts S4096
  bcast_S_S4096 : S_.BroadcastsInDim S4096 (![] : Fin 0 → Fin S4096.rank)
  bcast_S_S32000 : S_.BroadcastsInDim S32000 (![] : Fin 0 → Fin S32000.rank)
  bcast_S4096_S4096x1_0 : S4096.BroadcastsInDim S4096x1 (![0] : Fin 1 → Fin S4096x1.rank)
  reducesTo_S32000_S_d0 : S32000.ReducesTo [0] S_
  h_S_ : 0 < S_.numel
  scatter_S32000_S4096x1_S4096_n_0_0_1_wf : ScatterDims.WF S32000 S4096x1 S4096 [] [0] [0] 1
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S64x6400.size a ≤ S64x32000.size a
  k0_t2_ok : k0_t2_loop.OK
  k0_mult2_dvd : ∀ k0_t2 : Fin k0_t2_loop.trips, 128 ∣ (k0_mult2 k0_t2).toNat
  k0_off2_inb : ∀ k0_t2 : Fin k0_t2_loop.trips, ∀ a, (k0_off2 k0_t2) a + S64x6400.size a ≤ S64x32000.size a
  k0_t3_ok : k0_t3_loop.OK
  k0_mult3_dvd : ∀ k0_t3 : Fin k0_t3_loop.trips, 128 ∣ (k0_mult3 k0_t3).toNat
  k0_off3_inb : ∀ k0_t3 : Fin k0_t3_loop.trips, ∀ a, (k0_off3 k0_t3) a + S64x6400.size a ≤ S64x32000.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x32000.size a ≤ S4096x32000.size a
  hwx0_0 : ∀ i : grid0.Coords, EltTy.bits .f32 = 32 ∨ (Rect.block (s := S4096x32000) S64x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x1.size a ≤ S4096x1.size a
  hwx0_1 : ∀ i : grid0.Coords, EltTy.bits .f32 = 32 ∨ (Rect.block (s := S4096x1) S64x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S4096x1.size a
  hwx0_2 : ∀ i : grid0.Coords, EltTy.bits .f32 = 32 ∨ (Rect.block (s := S4096x1) S64x1.size (cc0_transform_2 i) (hinb0_2 i)).WholeWords (EltTy.packing .f32)

variable [Facts₀]

def scatter_S32000_S4096x1_S4096_n_0_0_1 : ScatterDims S32000 S4096x1 S4096 where
  updateWindowDims := []
  insertedWindowDims := [0]
  scatterDimsToOperandDims := [0]
  indexVectorDim := 1
  wf := scatter_S32000_S4096x1_S4096_n_0_0_1_wf

abbrev win0_0 : Pipeline.Window sig grid0 :=
  Pipeline.Window.ofSpec (Memref.whole main_arg0) S64x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x32000 : Shape := ⟨2, ![4096, 32000]⟩
abbrev S4096 : Shape := ⟨1, ![4096]⟩
abbrev S_ : Shape := ⟨0, ![]⟩
abbrev S4096x1 : Shape := ⟨2, ![4096, 1]⟩
abbrev S32000 : Shape := ⟨1, ![32000]⟩

abbrev nBuf : Space → Nat
  | .hbm => 56
  | .vmem => 0
  | .smem => 0
  | _ => 0

abbrev bufTy : (tb : Table) → Fin (tcTables nBuf tb) → BufTy
  | .hbm, ⟨0, _⟩ => ⟨S4096x32000, .f32⟩
  | .hbm, ⟨1, _⟩ => ⟨S4096, .i32⟩
  | .hbm, ⟨2, _⟩ => ⟨S_, .f32⟩
  | .hbm, ⟨3, _⟩ => ⟨S4096, .f32⟩
  | .hbm, ⟨4, _⟩ => ⟨S_, .f32⟩
  | .hbm, ⟨5, _⟩ => ⟨S4096, .f32⟩
  | .hbm, ⟨6, _⟩ => ⟨S4096, .f32⟩
  | .hbm, ⟨7, _⟩ => ⟨S4096x1, .f32⟩
  | .hbm, ⟨8, _⟩ => ⟨S4096x32000, .f32⟩
  | .hbm, ⟨9, _⟩ => ⟨S4096x32000, .f32⟩
  | .hbm, ⟨10, _⟩ => ⟨S4096x32000, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S4096x1, .f32⟩
  | .hbm, ⟨15, _⟩ => ⟨S4096x32000, .f32⟩
  | .hbm, ⟨16, _⟩ => ⟨S4096x32000, .f32⟩
  | .hbm, ⟨17, _⟩ => ⟨S4096x32000, .f32⟩
  | .hbm, ⟨18, _⟩ => ⟨S_, .f32⟩
  | .hbm, ⟨19, _⟩ => ⟨S4096x32000, .f32⟩
  | .hbm, ⟨20, _⟩ => ⟨S4096x32000, .f32⟩
  | .hbm, ⟨21, _⟩ => ⟨S_, .f32⟩
  | .hbm, ⟨22, _⟩ => ⟨S4096x32000, .f32⟩
  | .hbm, ⟨23, _⟩ => ⟨S4096x32000, .f32⟩
  | .hbm, ⟨24, _⟩ => ⟨S4096x32000, .f32⟩
  | .hbm, ⟨25, _⟩ => ⟨S_, .f32⟩
  | .hbm, ⟨26, _⟩ => ⟨S4096, .f32⟩
  | .hbm, ⟨27, _⟩ => ⟨S4096, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S32000, .f32⟩
  | .hbm, ⟨33, _⟩ => ⟨S4096x1, .i32⟩
  | .hbm, ⟨34, _⟩ => ⟨S32000, .f32⟩
  | .hbm, ⟨35, _⟩ => ⟨S_, .f32⟩
  | .hbm, ⟨36, _⟩ => ⟨S32000, .f32⟩
  | .hbm, ⟨37, _⟩ => ⟨S4096x1, .i32⟩
  | .hbm, ⟨38, _⟩ => ⟨S32000, .f32⟩
  | .hbm, ⟨39, _⟩ => ⟨S_, .f32⟩
  | .hbm, ⟨40, _⟩ => ⟨S32000, .f32⟩
  | .hbm, ⟨41, _⟩ => ⟨S32000, .f32⟩
  | .hbm, ⟨42, _⟩ => ⟨S_, .f32⟩
  | .hbm, ⟨43, _⟩ => ⟨S32000, .f32⟩
  | .hbm, ⟨44, _⟩ => ⟨S32000, .f32⟩
  | .hbm, ⟨45, _⟩ => ⟨S_, .f32⟩
  | .hbm, ⟨46, _⟩ => ⟨S32000, .f32⟩
  | .hbm, ⟨47, _⟩ => ⟨S32000, .f32⟩
  | .hbm, ⟨48, _⟩ => ⟨S_, .f32⟩
  | .hbm, ⟨49, _⟩ => ⟨S32000, .f32⟩
  | .hbm, ⟨50, _⟩ => ⟨S32000, .f32⟩
  | .hbm, ⟨51, _⟩ => ⟨S32000, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | _, _ => ⟨S4096x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_1 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_4 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_5 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_cst_7 : Ref sig .tc := ⟨.hbm, 45, rfl⟩
abbrev main_v21 : Ref sig .tc := ⟨.hbm, 46, rfl⟩
abbrev main_v22 : Ref sig .tc := ⟨.hbm, 47, rfl⟩
abbrev main_cst_8 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_cst_10 : Ref sig .tc := ⟨.hbm, 54, rfl⟩
abbrev main_v27 : Ref sig .tc := ⟨.hbm, 55, rfl⟩

abbrev nD : Nat := 1
abbrev τ : Topo := Topo.v7x

variable {F : FTy → Type} [FloatOps F]

class Facts₀ : Prop where
  reducesTo_S4096x32000_S4096_d1 : S4096x32000.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x32000_0_1 : S4096x1.BroadcastsInDim S4096x32000 (![0, 1] : Fin 2 → Fin S4096x32000.rank)
  bcast_S_S4096x32000 : S_.BroadcastsInDim S4096x32000 (![] : Fin 0 → Fin S4096x32000.rank)
  bcast_S_S32000 : S_.BroadcastsInDim S32000 (![] : Fin 0 → Fin S32000.rank)
  reducesTo_S32000_S_d0 : S32000.ReducesTo [0] S_
  scatter_S32000_S4096x1_S4096_n_0_0_1_wf : ScatterDims.WF S32000 S4096x1 S4096 [] [0] [0] 1

variable [Facts₀]

def scatter_S32000_S4096x1_S4096_n_0_0_1 : ScatterDims S32000 S4096x1 S4096 where
  updateWindowDims := []
  insertedWindowDims := [0]
  scatterDimsToOperandDims := [0]
  indexVectorDim := 1
  wf := scatter_S32000_S4096x1_S4096_n_0_0_1_wf

class Facts : Prop extends Facts₀ where

variable [Facts]
-- ==== Proof.KernelBitsFold.lean ====
/-
  The kernel's body as a function of its two input blocks.

  One grid point holds 64 rows. The body walks the 32000 columns three times, 6400 columns at a time: first a running
  maximum of each row (started from a large negative number), then the running sum of the exponentials of the shifted
  logits, then the running sum of the focal terms, and at the end multiplies each row's sum by that row's target. Below
  the three recurrences are written over the body's own arithmetic (the payload of each of its stores), for any float
  type; what the recurrences compute on the extended reals is a separate matter.
-/
import proofs.«429998_j34471407518073_3_alg».proof.Proof.Gen.Kernel.Skeleton
import Idealize.ShloMosaic.Lib.Pipeline.FrameBody

noncomputable section

namespace Cert.Kernel.Fold

open Idealize.ShloMosaic Idealize.SL.Sem
open Cert.Kernel Cert.Kernel.Gen

variable {F : FTy → Type} [FloatOps F]

/-- Columns `6400 k … 6400 k + 6399` of a block of 64 rows. -/
def chunk (x : Vec F S64x32000 .f32) (k : Fin k0_t1_loop.trips) : Vec F S64x6400 .f32 :=
  View.ld x (Rect.unit (k0_off1 k) S64x6400.size (k0_off1_inb k))

/-- The running maximum of each row after the first `n` chunks. -/
def runMax (x : Vec F S64x32000 .f32) : ℕ → Vec F S64x1 .f32
  | 0 => k0_pay2
  | n + 1 => if h : n < k0_t1_loop.trips then k0_pay3 (chunk x ⟨n, h⟩) (runMax x n) else runMax x n

/-- The running sum of `exp (logit - M)` of each row after the first `n` chunks. -/
def runSum (x : Vec F S64x32000 .f32) (M : Vec F S64x1 .f32) : ℕ → Vec F S64x1 .f32
  | 0 => k0_pay4
  | n + 1 => if h : n < k0_t1_loop.trips then k0_pay7 M (chunk x ⟨n, h⟩) (runSum x M n) else runSum x M n

/-- The running sum of the focal terms of each row after the first `n` chunks; the exponentials the second walk kept
    are those of the same chunk. -/
def runAcc (x : Vec F S64x32000 .f32) (M L : Vec F S64x1 .f32) : ℕ → Vec F S64x1 .f32
  | 0 => k0_pay8
  | n + 1 =>
    if h : n < k0_t1_loop.trips then k0_pay9 M L L (chunk x ⟨n, h⟩) (k0_pay6 M (chunk x ⟨n, h⟩)) (runAcc x M L n)
    else runAcc x M L n

/-- What the body leaves in its output block: each row's target times its focal sum. -/
def blockOut (x0 : Vec F S64x32000 .f32) (x1 : Vec F S64x1 .f32) : Vec F S64x1 .f32 :=
  k0_pay1 (k0_pay10 x1)
    (runAcc x0 (runMax x0 k0_t1_loop.trips) (runSum x0 (runMax x0 k0_t1_loop.trips) k0_t1_loop.trips) k0_t1_loop.trips)

end Cert.Kernel.Fold

end
-- ==== Proof.KernelBitsTrips.lean ====
/-
  The three column walks of the kernel's body, read as values.

  Each walk is a counted loop of five trips over chunks of 6400 columns. One trip of the first walk stores, over the
  whole 64×1 running-maximum buffer, the larger of what it finds there and the chunk's row maxima; one trip of the
  second stores the chunk's exponentials into its own columns of the 64×32000 buffer and adds their row sums into the
  64×1 sum buffer; one trip of the third adds the chunk's focal terms into the 64×1 accumulator. Because every store
  into a 64×1 buffer covers it whole, what such a buffer holds after `n` trips is the `n`-th step of a recurrence on
  its contents (`Fold.runMax`, `Fold.runSum`, `Fold.runAcc`), whatever it held before the first store; and the
  64×32000 buffer, whose five chunks are written once each into disjoint columns, holds at chunk `k` the exponentials of
  chunk `k` from trip `k` on.
-/
import proofs.«429998_j34471407518073_3_alg».proof.Proof.Gen.Kernel.Loops
import proofs.«429998_j34471407518073_3_alg».proof.Proof.KernelBitsFold
import Idealize.ShloMosaic.Lib.Pipeline.Value

set_option maxRecDepth 16384

noncomputable section

namespace Cert.Kernel.Trips

open Idealize.ShloMosaic Idealize.ShloMosaic.TcCoe
open Idealize.SL Idealize.SL.Sem
open Cert.Kernel Cert.Kernel.Gen

variable {F : FTy → Type} [FloatOps F]

theorem hz : (![0, 0] : Fin 2 → Nat) = fun _ => 0 := funext fun a => by fin_cases a <;> rfl

/-- The rectangle of a whole 64×1 buffer. -/
abbrev r0 : Rect S64x1 := Rect.unit ![0, 0] S64x1.size Gen.inb_S64x1_S64x1_0_0

/-- The rectangle of chunk `k` in a 64×32000 buffer. -/
abbrev rk (k : Fin k0_t1_loop.trips) : Rect S64x32000 := Rect.unit (k0_off1 k) S64x6400.size (Gen.k0_off1_inb k)

/-- After a last store that covers the whole shape, a buffer reads as that store's payload. -/
theorem read_writes_whole {sig : RefSig} {κ : Kind} {sp : Space} {S : Shape} {e : EltTy} (v : View sig κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f (⟨Rect.unit off S.size inb, w⟩ :: L)) = w := by
  rw [View.read_writes_eq_canon _ _ _ (fun y => ⟨_, List.mem_cons_self, View.mem_set_unit_zero h inb y⟩),
    View.canon_cons_unit_zero h]

/-! ## One trip of each walk -/

/-- One trip of the first walk: the running maximum joined with the chunk's row maxima, over the whole buffer. -/
theorem trip1 (𝒱 : Variants) (c : Dev nD) (bd : Option 𝒱.V) (i : grid0.Coords) (arg1 : Memref sig .tc .vmem S64x32000 .f32) (harg1 : arg1.IsWhole) (arg2 : Memref sig .tc .vmem S64x1 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x32000 .f32) (harg7 : arg7.IsWhole) (X1 : BufTy.Contents (Elt F) arg1.view.ty) (k : Fin k0_t1_loop.trips)
    (f4 : BufTy.Contents (Elt F) arg4.view.ty) :
    tripL_k0_t1 (F := F) 𝒱 c bd i arg1 harg1 arg2 harg2 arg3 harg3 arg4 harg4 arg5 harg5 arg6 harg6 arg7 harg7 X1 k f4
      = [⟨r0, k0_pay3 (Fold.chunk (arg1.view.read (Elt F) X1) k) (arg4.view.read (Elt F) f4)⟩] := by
  unfold tripL_k0_t1 trip_k0_t1
  dsimp only
  simp only [View.readAt_eq_ld, View.ld_unit_zero (S := S64x1) hz]
  rfl

/-- One trip of the second walk: the chunk's exponentials into their own columns, their row sums added into the sums. -/
theorem trip2 (𝒱 : Variants) (c : Dev nD) (bd : Option 𝒱.V) (i : grid0.Coords) (arg1 : Memref sig .tc .vmem S64x32000 .f32) (harg1 : arg1.IsWhole) (arg2 : Memref sig .tc .vmem S64x1 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x32000 .f32) (harg7 : arg7.IsWhole) (v5 : Vec F S64x1 .f32) (X1 : BufTy.Contents (Elt F) arg1.view.ty) (k : Fin k0_t2_loop.trips)
    (f5 : BufTy.Contents (Elt F) arg5.view.ty) (f7 : BufTy.Contents (Elt F) arg7.view.ty) :
    tripL_k0_t2 (F := F) 𝒱 c bd i arg1 harg1 arg2 harg2 arg3 harg3 arg4 harg4 arg5 harg5 arg6 harg6 arg7 harg7 v5 X1 k f5 f7
      = ([⟨r0, k0_pay7 v5 (Fold.chunk (arg1.view.read (Elt F) X1) k) (arg5.view.read (Elt F) f5)⟩],
         [⟨rk k, k0_pay6 v5 (Fold.chunk (arg1.view.read (Elt F) X1) k)⟩]) := by
  unfold tripL_k0_t2 trip_k0_t2
  dsimp only
  simp only [View.readAt_eq_ld, View.ld_unit_zero (S := S64x1) hz]
  rfl

/-- One trip of the third walk: the chunk's focal terms added into the accumulator. -/
theorem trip3 (𝒱 : Variants) (c : Dev nD) (bd : Option 𝒱.V) (i : grid0.Coords) (arg1 : Memref sig .tc .vmem S64x32000 .f32) (harg1 : arg1.IsWhole) (arg2 : Memref sig .tc .vmem S64x1 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x32000 .f32) (harg7 : arg7.IsWhole) (v5 v11 v13 : Vec F S64x1 .f32) (X1 : BufTy.Contents (Elt F) arg1.view.ty)
    (X7 : BufTy.Contents (Elt F) arg7.view.ty) (k : Fin k0_t3_loop.trips) (f6 : BufTy.Contents (Elt F) arg6.view.ty) :
    tripL_k0_t3 (F := F) 𝒱 c bd i arg1 harg1 arg2 harg2 arg3 harg3 arg4 harg4 arg5 harg5 arg6 harg6 arg7 harg7 v5 v11 v13 X1 X7 k f6
      = [⟨r0, k0_pay9 v5 v11 v13 (Fold.chunk (arg1.view.read (Elt F) X1) k)
            (View.ld (arg7.view.read (Elt F) X7) (rk k)) (arg6.view.read (Elt F) f6)⟩] := by
  unfold tripL_k0_t3 trip_k0_t3
  dsimp only
  simp only [View.readAt_eq_ld, View.ld_unit_zero (S := S64x1) hz]
  rfl

/-! ## The buffers after `n` trips -/

/-- Chunks `k < n` lie in columns before chunk `n`'s. -/
theorem rk_disjoint (k n : Fin k0_t1_loop.trips) (h : k.val < n.val) : Disjoint (rk k).set (rk n).set := by
  refine Rect.unit_disjoint (1 : Fin S64x32000.rank) (Or.inl ?_)
  rw [k0_off1_eq k, k0_off1_eq n]
  show 6400 * k.val + 6400 ≤ 6400 * n.val
  omega

/-- The running-maximum buffer after `n` trips of the first walk, started from the literal fill. -/
theorem read_pb1 (𝒱 : Variants) (c : Dev nD) (bd : Option 𝒱.V) (i : grid0.Coords) (arg1 : Memref sig .tc .vmem S64x32000 .f32) (harg1 : arg1.IsWhole) (arg2 : Memref sig .tc .vmem S64x1 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x32000 .f32) (harg7 : arg7.IsWhole) (X1 : BufTy.Contents (Elt F) arg1.view.ty) (G4 : BufTy.Contents (Elt F) arg4.view.ty)
    (hG : arg4.view.read (Elt F) G4 = (k0_pay2 (F := F))) (n : ℕ) :
    arg4.view.read (Elt F) (arg4.view.writes (Elt F) G4 (pb_k0_t1 (F := F) 𝒱 c bd i arg1 harg1 arg2 harg2 arg3 harg3 arg4 harg4 arg5 harg5 arg6 harg6 arg7 harg7 X1 G4 n))
      = Fold.runMax (arg1.view.read (Elt F) X1) n := by
  induction n with
  | zero => exact hG
  | succ n ih =>
    rw [pb_k0_t1.eq_2]; unfold pb_k0_t1Step
    by_cases h : n < k0_t1_loop.trips
    · rw [dif_pos h, trip1, List.singleton_append, read_writes_whole _ _ hz, ih, Fold.runMax, dif_pos h]
    · rw [dif_neg h, ih, Fold.runMax, dif_neg h]

/-- The sum buffer after `n` trips of the second walk, started from zero. -/
theorem read_pb2_sum (𝒱 : Variants) (c : Dev nD) (bd : Option 𝒱.V) (i : grid0.Coords) (arg1 : Memref sig .tc .vmem S64x32000 .f32) (harg1 : arg1.IsWhole) (arg2 : Memref sig .tc .vmem S64x1 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x32000 .f32) (harg7 : arg7.IsWhole) (v5 : Vec F S64x1 .f32) (X1 : BufTy.Contents (Elt F) arg1.view.ty)
    (G5 : BufTy.Contents (Elt F) arg5.view.ty) (G7 : BufTy.Contents (Elt F) arg7.view.ty)
    (hG : arg5.view.read (Elt F) G5 = (k0_pay4 (F := F))) (n : ℕ) :
    arg5.view.read (Elt F) (arg5.view.writes (Elt F) G5 (pb_k0_t2 (F := F) 𝒱 c bd i arg1 harg1 arg2 harg2 arg3 harg3 arg4 harg4 arg5 harg5 arg6 harg6 arg7 harg7 v5 X1 G5 G7 n).1)
      = Fold.runSum (arg1.view.read (Elt F) X1) v5 n := by
  induction n with
  | zero => exact hG
  | succ n ih =>
    rw [pb_k0_t2.eq_2]; unfold pb_k0_t2Step
    by_cases h : n < k0_t2_loop.trips
    · rw [dif_pos h, trip2]
      dsimp only
      rw [List.singleton_append, read_writes_whole _ _ hz, ih, Fold.runSum, dif_pos h]
    · rw [dif_neg h, ih, Fold.runSum, dif_neg h]

/-- The exponentials buffer: from trip `k` on, its chunk `k` holds the exponentials of chunk `k`. -/
theorem read_pb2_exp (𝒱 : Variants) (c : Dev nD) (bd : Option 𝒱.V) (i : grid0.Coords) (arg1 : Memref sig .tc .vmem S64x32000 .f32) (harg1 : arg1.IsWhole) (arg2 : Memref sig .tc .vmem S64x1 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x32000 .f32) (harg7 : arg7.IsWhole) (v5 : Vec F S64x1 .f32) (X1 : BufTy.Contents (Elt F) arg1.view.ty)
    (G5 : BufTy.Contents (Elt F) arg5.view.ty) (G7 : BufTy.Contents (Elt F) arg7.view.ty)
    (k : Fin k0_t1_loop.trips) (n : ℕ) (hk : k.val < n) :
    View.ld (arg7.view.read (Elt F) (arg7.view.writes (Elt F) G7 (pb_k0_t2 (F := F) 𝒱 c bd i arg1 harg1 arg2 harg2 arg3 harg3 arg4 harg4 arg5 harg5 arg6 harg6 arg7 harg7 v5 X1 G5 G7 n).2)) (rk k)
      = k0_pay6 v5 (Fold.chunk (arg1.view.read (Elt F) X1) k) := by
  induction n with
  | zero => exact absurd hk (Nat.not_lt_zero _)
  | succ n ih =>
    rw [pb_k0_t2.eq_2]; unfold pb_k0_t2Step
    by_cases h : n < k0_t2_loop.trips
    · rw [dif_pos h, trip2]
      dsimp only
      rw [List.singleton_append]
      by_cases hkn : k.val = n
      · obtain rfl : k = ⟨n, h⟩ := Fin.ext hkn
        funext y
        exact View.read_writes_cons_emb _ _ (rk ⟨n, h⟩) _ _ y
      · have hlt : k.val < n := by omega
        funext y
        have hy : (rk k).idx y ∉ Finset.univ.map (rk ⟨n, h⟩).emb := by
          rw [Rect.map_emb_univ]
          exact Finset.disjoint_left.mp (rk_disjoint k ⟨n, h⟩ hlt) ((rk k).idx_mem y)
        show arg7.view.read (Elt F) (arg7.view.writes (Elt F) G7 (_ :: _)) ((rk k).idx y) = _
        rw [View.writes_cons, View.read_slice_write_of_not_mem _ _ _ _ hy]
        exact congrFun (ih hlt) y
    · rw [dif_neg h]
      exact ih (lt_of_lt_of_le k.isLt (Nat.le_of_not_lt h))

/-- The accumulator after `n` trips of the third walk, started from zero, over a buffer of exponentials whose chunk `k`
    holds the exponentials of chunk `k`. -/
theorem read_pb3 (𝒱 : Variants) (c : Dev nD) (bd : Option 𝒱.V) (i : grid0.Coords) (arg1 : Memref sig .tc .vmem S64x32000 .f32) (harg1 : arg1.IsWhole) (arg2 : Memref sig .tc .vmem S64x1 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x32000 .f32) (harg7 : arg7.IsWhole) (v5 L : Vec F S64x1 .f32) (X1 : BufTy.Contents (Elt F) arg1.view.ty)
    (X7 : BufTy.Contents (Elt F) arg7.view.ty) (G6 : BufTy.Contents (Elt F) arg6.view.ty)
    (hG : arg6.view.read (Elt F) G6 = (k0_pay8 (F := F)))
    (hX7 : ∀ k : Fin k0_t1_loop.trips, View.ld (arg7.view.read (Elt F) X7) (rk k) = k0_pay6 v5 (Fold.chunk (arg1.view.read (Elt F) X1) k))
    (n : ℕ) :
    arg6.view.read (Elt F) (arg6.view.writes (Elt F) G6 (pb_k0_t3 (F := F) 𝒱 c bd i arg1 harg1 arg2 harg2 arg3 harg3 arg4 harg4 arg5 harg5 arg6 harg6 arg7 harg7 v5 L L X1 X7 G6 n))
      = Fold.runAcc (arg1.view.read (Elt F) X1) v5 L n := by
  induction n with
  | zero => exact hG
  | succ n ih =>
    rw [pb_k0_t3.eq_2]; unfold pb_k0_t3Step
    by_cases h : n < k0_t3_loop.trips
    · rw [dif_pos h, trip3, List.singleton_append, read_writes_whole _ _ hz, ih, hX7 ⟨n, h⟩, Fold.runAcc, dif_pos h]
    · rw [dif_neg h, ih, Fold.runAcc, dif_neg h]

end Cert.Kernel.Trips

end
-- ==== Proof.KernelBitsBlock.lean ====
/-
  The body's output block as one function of its two input blocks.

  After the three column walks the accumulator buffer holds `Fold.runAcc` of the block, the running maxima and the
  sums; the body's last store multiplies it, row by row, by the targets. The buffers' contents are spelt below as the
  body's run leaves them — each 64×1 buffer a literal fill followed by the five trips of its walk, the 64×32000 buffer
  the five chunk stores over whatever it held before — and read back through `Trips`' lemmas: the value does not
  depend on what the 64×32000 buffer held before, because the third walk reads of it only the chunks the second wrote.
-/
import proofs.«429998_j34471407518073_3_alg».proof.Proof.KernelBitsTrips

set_option maxRecDepth 16384

noncomputable section

namespace Cert.Kernel.Block

open Idealize.ShloMosaic Idealize.ShloMosaic.TcCoe
open Idealize.SL Idealize.SL.Sem
open Cert.Kernel Cert.Kernel.Gen Cert.Kernel.Trips

variable {F : FTy → Type} [FloatOps F]

section Contents

variable (c : Dev nD) (i : grid0.Coords) (arg1 : Memref sig .tc .vmem S64x32000 .f32) (harg1 : arg1.IsWhole) (arg2 : Memref sig .tc .vmem S64x1 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x32000 .f32) (harg7 : arg7.IsWhole)
variable (x0 : Vec F S64x32000 .f32) (fs3 : BufTy.Contents (Elt F) arg7.view.ty)

/-- The running-maximum buffer after its literal fill. -/
abbrev fill4 : BufTy.Contents (Elt F) arg4.view.ty := arg4.view.writes (Elt F) arg4.view.junk [⟨r0, (k0_pay2 (F := F))⟩]
/-- The sum buffer after its zero fill. -/
abbrev fill5 : BufTy.Contents (Elt F) arg5.view.ty := arg5.view.writes (Elt F) arg5.view.junk [⟨r0, (k0_pay4 (F := F))⟩]
/-- The accumulator buffer after its zero fill. -/
abbrev fill6 : BufTy.Contents (Elt F) arg6.view.ty := arg6.view.writes (Elt F) arg6.view.junk [⟨r0, (k0_pay8 (F := F))⟩]

/-- What the body loads from the running-maximum buffer after the first walk. -/
abbrev ldMax : Vec F S64x1 .f32 :=
  View.readAt (Elt F) arg4.view r0.toLoadRect
    (arg4.view.writes (Elt F) arg4.view.junk
      (pb_k0_t1 (F := F) Variants.none c none i arg1 harg1 arg2 harg2 arg3 harg3 arg4 harg4 arg5 harg5 arg6 harg6 arg7 harg7 (harg1.unread x0) (fill4 arg4) k0_t1_loop.trips
        ++ [⟨r0, (k0_pay2 (F := F))⟩]))

/-- The two buffers the second walk writes, as piece lists. -/
abbrev pb2 := pb_k0_t2 (F := F) Variants.none c none i arg1 harg1 arg2 harg2 arg3 harg3 arg4 harg4 arg5 harg5 arg6 harg6 arg7 harg7 (ldMax c i arg1 harg1 arg2 harg2 arg3 harg3 arg4 harg4 arg5 harg5 arg6 harg6 arg7 harg7 x0) (harg1.unread x0) (fill5 arg5) fs3
  k0_t2_loop.trips

/-- What the body loads from the sum buffer after the second walk. -/
abbrev ldSum : Vec F S64x1 .f32 :=
  View.readAt (Elt F) arg5.view r0.toLoadRect
    (arg5.view.writes (Elt F) arg5.view.junk ((pb2 c i arg1 harg1 arg2 harg2 arg3 harg3 arg4 harg4 arg5 harg5 arg6 harg6 arg7 harg7 x0 fs3).1 ++ [⟨r0, (k0_pay4 (F := F))⟩]))

/-- What the body loads from the accumulator buffer after the third walk. -/
abbrev ldAcc : Vec F S64x1 .f32 :=
  View.readAt (Elt F) arg6.view r0.toLoadRect
    (arg6.view.writes (Elt F) arg6.view.junk
      (pb_k0_t3 (F := F) Variants.none c none i arg1 harg1 arg2 harg2 arg3 harg3 arg4 harg4 arg5 harg5 arg6 harg6 arg7 harg7 (ldMax c i arg1 harg1 arg2 harg2 arg3 harg3 arg4 harg4 arg5 harg5 arg6 harg6 arg7 harg7 x0) (ldSum c i arg1 harg1 arg2 harg2 arg3 harg3 arg4 harg4 arg5 harg5 arg6 harg6 arg7 harg7 x0 fs3) (ldSum c i arg1 harg1 arg2 harg2 arg3 harg3 arg4 harg4 arg5 harg5 arg6 harg6 arg7 harg7 x0 fs3)
          (harg1.unread x0) (arg7.view.writes (Elt F) fs3 (pb2 c i arg1 harg1 arg2 harg2 arg3 harg3 arg4 harg4 arg5 harg5 arg6 harg6 arg7 harg7 x0 fs3).2) (fill6 arg6) k0_t3_loop.trips
        ++ [⟨r0, (k0_pay8 (F := F))⟩]))

theorem ldMax_eq : ldMax c i arg1 harg1 arg2 harg2 arg3 harg3 arg4 harg4 arg5 harg5 arg6 harg6 arg7 harg7 x0 = Fold.runMax x0 k0_t1_loop.trips := by
  unfold ldMax
  rw [View.readAt_eq_ld, View.ld_unit_zero (S := S64x1) hz, View.writes_append,
    read_pb1 _ _ _ _ arg1 harg1 arg2 harg2 arg3 harg3 arg4 harg4 arg5 harg5 arg6 harg6 arg7 harg7 _ _ (read_writes_whole _ _ hz _ _ _), harg1.read_unread]

theorem ldSum_eq : ldSum c i arg1 harg1 arg2 harg2 arg3 harg3 arg4 harg4 arg5 harg5 arg6 harg6 arg7 harg7 x0 fs3 = Fold.runSum x0 (Fold.runMax x0 k0_t1_loop.trips) k0_t1_loop.trips := by
  unfold ldSum pb2
  rw [View.readAt_eq_ld, View.ld_unit_zero (S := S64x1) hz, View.writes_append,
    read_pb2_sum _ _ _ _ arg1 harg1 arg2 harg2 arg3 harg3 arg4 harg4 arg5 harg5 arg6 harg6 arg7 harg7 _ _ _ _ (read_writes_whole _ _ hz _ _ _), harg1.read_unread, ldMax_eq]

theorem ldAcc_eq : ldAcc c i arg1 harg1 arg2 harg2 arg3 harg3 arg4 harg4 arg5 harg5 arg6 harg6 arg7 harg7 x0 fs3
    = Fold.runAcc x0 (Fold.runMax x0 k0_t1_loop.trips)
        (Fold.runSum x0 (Fold.runMax x0 k0_t1_loop.trips) k0_t1_loop.trips) k0_t1_loop.trips := by
  unfold ldAcc
  rw [View.readAt_eq_ld, View.ld_unit_zero (S := S64x1) hz, View.writes_append,
    read_pb3 _ _ _ _ arg1 harg1 arg2 harg2 arg3 harg3 arg4 harg4 arg5 harg5 arg6 harg6 arg7 harg7 _ _ _ _ _ (read_writes_whole _ _ hz _ _ _)
      (fun k => read_pb2_exp _ _ _ _ arg1 harg1 arg2 harg2 arg3 harg3 arg4 harg4 arg5 harg5 arg6 harg6 arg7 harg7 _ _ _ _ k _ k.isLt),
    harg1.read_unread, ldMax_eq, ldSum_eq]

end Contents

/-- The payload of the body's last store, spelt over the buffers' contents as its run leaves them, is `Fold.blockOut`. -/
theorem payload_eq (c : Dev nD) (i : grid0.Coords) (arg1 : Memref sig .tc .vmem S64x32000 .f32) (harg1 : arg1.IsWhole) (arg2 : Memref sig .tc .vmem S64x1 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x32000 .f32) (harg7 : arg7.IsWhole)
    (x0 : Vec F S64x32000 .f32) (x1 : Vec F S64x1 .f32) (fs3 : BufTy.Contents (Elt F) arg7.view.ty) :
    k0_pay1 (k0_pay10 (View.readAt (Elt F) arg2.view r0.toLoadRect (harg2.unread x1))) (ldAcc c i arg1 harg1 arg2 harg2 arg3 harg3 arg4 harg4 arg5 harg5 arg6 harg6 arg7 harg7 x0 fs3)
      = Fold.blockOut x0 x1 := by
  rw [ldAcc_eq, View.readAt_eq_ld, View.ld_unit_zero (S := S64x1) hz, harg2.read_unread]
  rfl

end Cert.Kernel.Block

end
-- ==== Proof.KernelFold.lean ====
/-
  The kernel's body as a function of its two input blocks.

  One grid point holds 64 rows. The body walks the 32000 columns three times, 6400 columns at a time: first a running
  maximum of each row (started from a large negative number), then the running sum of the exponentials of the shifted
  logits, then the running sum of the focal terms, and at the end multiplies each row's sum by that row's target. Below
  the three recurrences are written over the body's own arithmetic (the payload of each of its stores), for any float
  type; what the recurrences compute on the extended reals is a separate matter.
-/
import proofs.«429998_j34471407518073_3_alg».proof.Proof.Gen.KernelIdeal.Skeleton
import Idealize.ShloMosaic.Lib.Pipeline.FrameBody

noncomputable section

namespace Cert.KernelIdeal.Fold

open Idealize.ShloMosaic Idealize.SL.Sem
open Cert.KernelIdeal Cert.KernelIdeal.Gen

variable {F : FTy → Type} [FloatOps F]

/-- Columns `6400 k … 6400 k + 6399` of a block of 64 rows. -/
def chunk (x : Vec F S64x32000 .f32) (k : Fin k0_t1_loop.trips) : Vec F S64x6400 .f32 :=
  View.ld x (Rect.unit (k0_off1 k) S64x6400.size (k0_off1_inb k))

/-- The running maximum of each row after the first `n` chunks. -/
def runMax (x : Vec F S64x32000 .f32) : ℕ → Vec F S64x1 .f32
  | 0 => k0_pay2
  | n + 1 => if h : n < k0_t1_loop.trips then k0_pay3 (chunk x ⟨n, h⟩) (runMax x n) else runMax x n

/-- The running sum of `exp (logit - M)` of each row after the first `n` chunks. -/
def runSum (x : Vec F S64x32000 .f32) (M : Vec F S64x1 .f32) : ℕ → Vec F S64x1 .f32
  | 0 => k0_pay4
  | n + 1 => if h : n < k0_t1_loop.trips then k0_pay7 M (chunk x ⟨n, h⟩) (runSum x M n) else runSum x M n

/-- The running sum of the focal terms of each row after the first `n` chunks; the exponentials the second walk kept
    are those of the same chunk. -/
def runAcc (x : Vec F S64x32000 .f32) (M L : Vec F S64x1 .f32) : ℕ → Vec F S64x1 .f32
  | 0 => k0_pay8
  | n + 1 =>
    if h : n < k0_t1_loop.trips then k0_pay9 M L L (chunk x ⟨n, h⟩) (k0_pay6 M (chunk x ⟨n, h⟩)) (runAcc x M L n)
    else runAcc x M L n

/-- What the body leaves in its output block: each row's target times its focal sum. -/
def blockOut (x0 : Vec F S64x32000 .f32) (x1 : Vec F S64x1 .f32) : Vec F S64x1 .f32 :=
  k0_pay1 (k0_pay10 x1)
    (runAcc x0 (runMax x0 k0_t1_loop.trips) (runSum x0 (runMax x0 k0_t1_loop.trips) k0_t1_loop.trips) k0_t1_loop.trips)

end Cert.KernelIdeal.Fold

end
-- ==== Proof.KernelTrips.lean ====
/-
  The three column walks of the kernel's body, read as values.

  Each walk is a counted loop of five trips over chunks of 6400 columns. One trip of the first walk stores, over the
  whole 64×1 running-maximum buffer, the larger of what it finds there and the chunk's row maxima; one trip of the
  second stores the chunk's exponentials into its own columns of the 64×32000 buffer and adds their row sums into the
  64×1 sum buffer; one trip of the third adds the chunk's focal terms into the 64×1 accumulator. Because every store
  into a 64×1 buffer covers it whole, what such a buffer holds after `n` trips is the `n`-th step of a recurrence on
  its contents (`Fold.runMax`, `Fold.runSum`, `Fold.runAcc`), whatever it held before the first store; and the
  64×32000 buffer, whose five chunks are written once each into disjoint columns, holds at chunk `k` the exponentials of
  chunk `k` from trip `k` on.
-/
import proofs.«429998_j34471407518073_3_alg».proof.Proof.Gen.KernelIdeal.Loops
import proofs.«429998_j34471407518073_3_alg».proof.Proof.KernelFold
import Idealize.ShloMosaic.Lib.Pipeline.Value

set_option maxRecDepth 16384

noncomputable section

namespace Cert.KernelIdeal.Trips

open Idealize.ShloMosaic Idealize.ShloMosaic.TcCoe
open Idealize.SL Idealize.SL.Sem
open Cert.KernelIdeal Cert.KernelIdeal.Gen

variable {F : FTy → Type} [FloatOps F]

theorem hz : (![0, 0] : Fin 2 → Nat) = fun _ => 0 := funext fun a => by fin_cases a <;> rfl

/-- The rectangle of a whole 64×1 buffer. -/
abbrev r0 : Rect S64x1 := Rect.unit ![0, 0] S64x1.size Gen.inb_S64x1_S64x1_0_0

/-- The rectangle of chunk `k` in a 64×32000 buffer. -/
abbrev rk (k : Fin k0_t1_loop.trips) : Rect S64x32000 := Rect.unit (k0_off1 k) S64x6400.size (Gen.k0_off1_inb k)

/-- After a last store that covers the whole shape, a buffer reads as that store's payload. -/
theorem read_writes_whole {sig : RefSig} {κ : Kind} {sp : Space} {S : Shape} {e : EltTy} (v : View sig κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f (⟨Rect.unit off S.size inb, w⟩ :: L)) = w := by
  rw [View.read_writes_eq_canon _ _ _ (fun y => ⟨_, List.mem_cons_self, View.mem_set_unit_zero h inb y⟩),
    View.canon_cons_unit_zero h]

/-! ## One trip of each walk -/

/-- One trip of the first walk: the running maximum joined with the chunk's row maxima, over the whole buffer. -/
theorem trip1 (𝒱 : Variants) (c : Dev nD) (bd : Option 𝒱.V) (i : grid0.Coords) (arg1 : Memref sig .tc .vmem S64x32000 .f32) (harg1 : arg1.IsWhole) (arg2 : Memref sig .tc .vmem S64x1 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x32000 .f32) (harg7 : arg7.IsWhole) (X1 : BufTy.Contents (Elt F) arg1.view.ty) (k : Fin k0_t1_loop.trips)
    (f4 : BufTy.Contents (Elt F) arg4.view.ty) :
    tripL_k0_t1 (F := F) 𝒱 c bd i arg1 harg1 arg2 harg2 arg3 harg3 arg4 harg4 arg5 harg5 arg6 harg6 arg7 harg7 X1 k f4
      = [⟨r0, k0_pay3 (Fold.chunk (arg1.view.read (Elt F) X1) k) (arg4.view.read (Elt F) f4)⟩] := by
  unfold tripL_k0_t1 trip_k0_t1
  dsimp only
  simp only [View.readAt_eq_ld, View.ld_unit_zero (S := S64x1) hz]
  rfl

/-- One trip of the second walk: the chunk's exponentials into their own columns, their row sums added into the sums. -/
theorem trip2 (𝒱 : Variants) (c : Dev nD) (bd : Option 𝒱.V) (i : grid0.Coords) (arg1 : Memref sig .tc .vmem S64x32000 .f32) (harg1 : arg1.IsWhole) (arg2 : Memref sig .tc .vmem S64x1 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x32000 .f32) (harg7 : arg7.IsWhole) (v5 : Vec F S64x1 .f32) (X1 : BufTy.Contents (Elt F) arg1.view.ty) (k : Fin k0_t2_loop.trips)
    (f5 : BufTy.Contents (Elt F) arg5.view.ty) (f7 : BufTy.Contents (Elt F) arg7.view.ty) :
    tripL_k0_t2 (F := F) 𝒱 c bd i arg1 harg1 arg2 harg2 arg3 harg3 arg4 harg4 arg5 harg5 arg6 harg6 arg7 harg7 v5 X1 k f5 f7
      = ([⟨r0, k0_pay7 v5 (Fold.chunk (arg1.view.read (Elt F) X1) k) (arg5.view.read (Elt F) f5)⟩],
         [⟨rk k, k0_pay6 v5 (Fold.chunk (arg1.view.read (Elt F) X1) k)⟩]) := by
  unfold tripL_k0_t2 trip_k0_t2
  dsimp only
  simp only [View.readAt_eq_ld, View.ld_unit_zero (S := S64x1) hz]
  rfl

/-- One trip of the third walk: the chunk's focal terms added into the accumulator. -/
theorem trip3 (𝒱 : Variants) (c : Dev nD) (bd : Option 𝒱.V) (i : grid0.Coords) (arg1 : Memref sig .tc .vmem S64x32000 .f32) (harg1 : arg1.IsWhole) (arg2 : Memref sig .tc .vmem S64x1 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x32000 .f32) (harg7 : arg7.IsWhole) (v5 v11 v13 : Vec F S64x1 .f32) (X1 : BufTy.Contents (Elt F) arg1.view.ty)
    (X7 : BufTy.Contents (Elt F) arg7.view.ty) (k : Fin k0_t3_loop.trips) (f6 : BufTy.Contents (Elt F) arg6.view.ty) :
    tripL_k0_t3 (F := F) 𝒱 c bd i arg1 harg1 arg2 harg2 arg3 harg3 arg4 harg4 arg5 harg5 arg6 harg6 arg7 harg7 v5 v11 v13 X1 X7 k f6
      = [⟨r0, k0_pay9 v5 v11 v13 (Fold.chunk (arg1.view.read (Elt F) X1) k)
            (View.ld (arg7.view.read (Elt F) X7) (rk k)) (arg6.view.read (Elt F) f6)⟩] := by
  unfold tripL_k0_t3 trip_k0_t3
  dsimp only
  simp only [View.readAt_eq_ld, View.ld_unit_zero (S := S64x1) hz]
  rfl

/-! ## The buffers after `n` trips -/

/-- Chunks `k < n` lie in columns before chunk `n`'s. -/
theorem rk_disjoint (k n : Fin k0_t1_loop.trips) (h : k.val < n.val) : Disjoint (rk k).set (rk n).set := by
  refine Rect.unit_disjoint (1 : Fin S64x32000.rank) (Or.inl ?_)
  rw [k0_off1_eq k, k0_off1_eq n]
  show 6400 * k.val + 6400 ≤ 6400 * n.val
  omega

/-- The running-maximum buffer after `n` trips of the first walk, started from the literal fill. -/
theorem read_pb1 (𝒱 : Variants) (c : Dev nD) (bd : Option 𝒱.V) (i : grid0.Coords) (arg1 : Memref sig .tc .vmem S64x32000 .f32) (harg1 : arg1.IsWhole) (arg2 : Memref sig .tc .vmem S64x1 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x32000 .f32) (harg7 : arg7.IsWhole) (X1 : BufTy.Contents (Elt F) arg1.view.ty) (G4 : BufTy.Contents (Elt F) arg4.view.ty)
    (hG : arg4.view.read (Elt F) G4 = (k0_pay2 (F := F))) (n : ℕ) :
    arg4.view.read (Elt F) (arg4.view.writes (Elt F) G4 (pb_k0_t1 (F := F) 𝒱 c bd i arg1 harg1 arg2 harg2 arg3 harg3 arg4 harg4 arg5 harg5 arg6 harg6 arg7 harg7 X1 G4 n))
      = Fold.runMax (arg1.view.read (Elt F) X1) n := by
  induction n with
  | zero => exact hG
  | succ n ih =>
    rw [pb_k0_t1.eq_2]; unfold pb_k0_t1Step
    by_cases h : n < k0_t1_loop.trips
    · rw [dif_pos h, trip1, List.singleton_append, read_writes_whole _ _ hz, ih, Fold.runMax, dif_pos h]
    · rw [dif_neg h, ih, Fold.runMax, dif_neg h]

/-- The sum buffer after `n` trips of the second walk, started from zero. -/
theorem read_pb2_sum (𝒱 : Variants) (c : Dev nD) (bd : Option 𝒱.V) (i : grid0.Coords) (arg1 : Memref sig .tc .vmem S64x32000 .f32) (harg1 : arg1.IsWhole) (arg2 : Memref sig .tc .vmem S64x1 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x32000 .f32) (harg7 : arg7.IsWhole) (v5 : Vec F S64x1 .f32) (X1 : BufTy.Contents (Elt F) arg1.view.ty)
    (G5 : BufTy.Contents (Elt F) arg5.view.ty) (G7 : BufTy.Contents (Elt F) arg7.view.ty)
    (hG : arg5.view.read (Elt F) G5 = (k0_pay4 (F := F))) (n : ℕ) :
    arg5.view.read (Elt F) (arg5.view.writes (Elt F) G5 (pb_k0_t2 (F := F) 𝒱 c bd i arg1 harg1 arg2 harg2 arg3 harg3 arg4 harg4 arg5 harg5 arg6 harg6 arg7 harg7 v5 X1 G5 G7 n).1)
      = Fold.runSum (arg1.view.read (Elt F) X1) v5 n := by
  induction n with
  | zero => exact hG
  | succ n ih =>
    rw [pb_k0_t2.eq_2]; unfold pb_k0_t2Step
    by_cases h : n < k0_t2_loop.trips
    · rw [dif_pos h, trip2]
      dsimp only
      rw [List.singleton_append, read_writes_whole _ _ hz, ih, Fold.runSum, dif_pos h]
    · rw [dif_neg h, ih, Fold.runSum, dif_neg h]

/-- The exponentials buffer: from trip `k` on, its chunk `k` holds the exponentials of chunk `k`. -/
theorem read_pb2_exp (𝒱 : Variants) (c : Dev nD) (bd : Option 𝒱.V) (i : grid0.Coords) (arg1 : Memref sig .tc .vmem S64x32000 .f32) (harg1 : arg1.IsWhole) (arg2 : Memref sig .tc .vmem S64x1 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x32000 .f32) (harg7 : arg7.IsWhole) (v5 : Vec F S64x1 .f32) (X1 : BufTy.Contents (Elt F) arg1.view.ty)
    (G5 : BufTy.Contents (Elt F) arg5.view.ty) (G7 : BufTy.Contents (Elt F) arg7.view.ty)
    (k : Fin k0_t1_loop.trips) (n : ℕ) (hk : k.val < n) :
    View.ld (arg7.view.read (Elt F) (arg7.view.writes (Elt F) G7 (pb_k0_t2 (F := F) 𝒱 c bd i arg1 harg1 arg2 harg2 arg3 harg3 arg4 harg4 arg5 harg5 arg6 harg6 arg7 harg7 v5 X1 G5 G7 n).2)) (rk k)
      = k0_pay6 v5 (Fold.chunk (arg1.view.read (Elt F) X1) k) := by
  induction n with
  | zero => exact absurd hk (Nat.not_lt_zero _)
  | succ n ih =>
    rw [pb_k0_t2.eq_2]; unfold pb_k0_t2Step
    by_cases h : n < k0_t2_loop.trips
    · rw [dif_pos h, trip2]
      dsimp only
      rw [List.singleton_append]
      by_cases hkn : k.val = n
      · obtain rfl : k = ⟨n, h⟩ := Fin.ext hkn
        funext y
        exact View.read_writes_cons_emb _ _ (rk ⟨n, h⟩) _ _ y
      · have hlt : k.val < n := by omega
        funext y
        have hy : (rk k).idx y ∉ Finset.univ.map (rk ⟨n, h⟩).emb := by
          rw [Rect.map_emb_univ]
          exact Finset.disjoint_left.mp (rk_disjoint k ⟨n, h⟩ hlt) ((rk k).idx_mem y)
        show arg7.view.read (Elt F) (arg7.view.writes (Elt F) G7 (_ :: _)) ((rk k).idx y) = _
        rw [View.writes_cons, View.read_slice_write_of_not_mem _ _ _ _ hy]
        exact congrFun (ih hlt) y
    · rw [dif_neg h]
      exact ih (lt_of_lt_of_le k.isLt (Nat.le_of_not_lt h))

/-- The accumulator after `n` trips of the third walk, started from zero, over a buffer of exponentials whose chunk `k`
    holds the exponentials of chunk `k`. -/
theorem read_pb3 (𝒱 : Variants) (c : Dev nD) (bd : Option 𝒱.V) (i : grid0.Coords) (arg1 : Memref sig .tc .vmem S64x32000 .f32) (harg1 : arg1.IsWhole) (arg2 : Memref sig .tc .vmem S64x1 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x32000 .f32) (harg7 : arg7.IsWhole) (v5 L : Vec F S64x1 .f32) (X1 : BufTy.Contents (Elt F) arg1.view.ty)
    (X7 : BufTy.Contents (Elt F) arg7.view.ty) (G6 : BufTy.Contents (Elt F) arg6.view.ty)
    (hG : arg6.view.read (Elt F) G6 = (k0_pay8 (F := F)))
    (hX7 : ∀ k : Fin k0_t1_loop.trips, View.ld (arg7.view.read (Elt F) X7) (rk k) = k0_pay6 v5 (Fold.chunk (arg1.view.read (Elt F) X1) k))
    (n : ℕ) :
    arg6.view.read (Elt F) (arg6.view.writes (Elt F) G6 (pb_k0_t3 (F := F) 𝒱 c bd i arg1 harg1 arg2 harg2 arg3 harg3 arg4 harg4 arg5 harg5 arg6 harg6 arg7 harg7 v5 L L X1 X7 G6 n))
      = Fold.runAcc (arg1.view.read (Elt F) X1) v5 L n := by
  induction n with
  | zero => exact hG
  | succ n ih =>
    rw [pb_k0_t3.eq_2]; unfold pb_k0_t3Step
    by_cases h : n < k0_t3_loop.trips
    · rw [dif_pos h, trip3, List.singleton_append, read_writes_whole _ _ hz, ih, hX7 ⟨n, h⟩, Fold.runAcc, dif_pos h]
    · rw [dif_neg h, ih, Fold.runAcc, dif_neg h]

end Cert.KernelIdeal.Trips

end
-- ==== Proof.KernelBlock.lean ====
/-
  The body's output block as one function of its two input blocks.

  After the three column walks the accumulator buffer holds `Fold.runAcc` of the block, the running maxima and the
  sums; the body's last store multiplies it, row by row, by the targets. The buffers' contents are spelt below as the
  body's run leaves them — each 64×1 buffer a literal fill followed by the five trips of its walk, the 64×32000 buffer
  the five chunk stores over whatever it held before — and read back through `Trips`' lemmas: the value does not
  depend on what the 64×32000 buffer held before, because the third walk reads of it only the chunks the second wrote.
-/
import proofs.«429998_j34471407518073_3_alg».proof.Proof.KernelTrips

set_option maxRecDepth 16384

noncomputable section

namespace Cert.KernelIdeal.Block

open Idealize.ShloMosaic Idealize.ShloMosaic.TcCoe
open Idealize.SL Idealize.SL.Sem
open Cert.KernelIdeal Cert.KernelIdeal.Gen Cert.KernelIdeal.Trips

variable {F : FTy → Type} [FloatOps F]

section Contents

variable (c : Dev nD) (i : grid0.Coords) (arg1 : Memref sig .tc .vmem S64x32000 .f32) (harg1 : arg1.IsWhole) (arg2 : Memref sig .tc .vmem S64x1 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x32000 .f32) (harg7 : arg7.IsWhole)
variable (x0 : Vec F S64x32000 .f32) (fs3 : BufTy.Contents (Elt F) arg7.view.ty)

/-- The running-maximum buffer after its literal fill. -/
abbrev fill4 : BufTy.Contents (Elt F) arg4.view.ty := arg4.view.writes (Elt F) arg4.view.junk [⟨r0, (k0_pay2 (F := F))⟩]
/-- The sum buffer after its zero fill. -/
abbrev fill5 : BufTy.Contents (Elt F) arg5.view.ty := arg5.view.writes (Elt F) arg5.view.junk [⟨r0, (k0_pay4 (F := F))⟩]
/-- The accumulator buffer after its zero fill. -/
abbrev fill6 : BufTy.Contents (Elt F) arg6.view.ty := arg6.view.writes (Elt F) arg6.view.junk [⟨r0, (k0_pay8 (F := F))⟩]

/-- What the body loads from the running-maximum buffer after the first walk. -/
abbrev ldMax : Vec F S64x1 .f32 :=
  View.readAt (Elt F) arg4.view r0.toLoadRect
    (arg4.view.writes (Elt F) arg4.view.junk
      (pb_k0_t1 (F := F) Variants.none c none i arg1 harg1 arg2 harg2 arg3 harg3 arg4 harg4 arg5 harg5 arg6 harg6 arg7 harg7 (harg1.unread x0) (fill4 arg4) k0_t1_loop.trips
        ++ [⟨r0, (k0_pay2 (F := F))⟩]))

/-- The two buffers the second walk writes, as piece lists. -/
abbrev pb2 := pb_k0_t2 (F := F) Variants.none c none i arg1 harg1 arg2 harg2 arg3 harg3 arg4 harg4 arg5 harg5 arg6 harg6 arg7 harg7 (ldMax c i arg1 harg1 arg2 harg2 arg3 harg3 arg4 harg4 arg5 harg5 arg6 harg6 arg7 harg7 x0) (harg1.unread x0) (fill5 arg5) fs3
  k0_t2_loop.trips

/-- What the body loads from the sum buffer after the second walk. -/
abbrev ldSum : Vec F S64x1 .f32 :=
  View.readAt (Elt F) arg5.view r0.toLoadRect
    (arg5.view.writes (Elt F) arg5.view.junk ((pb2 c i arg1 harg1 arg2 harg2 arg3 harg3 arg4 harg4 arg5 harg5 arg6 harg6 arg7 harg7 x0 fs3).1 ++ [⟨r0, (k0_pay4 (F := F))⟩]))

/-- What the body loads from the accumulator buffer after the third walk. -/
abbrev ldAcc : Vec F S64x1 .f32 :=
  View.readAt (Elt F) arg6.view r0.toLoadRect
    (arg6.view.writes (Elt F) arg6.view.junk
      (pb_k0_t3 (F := F) Variants.none c none i arg1 harg1 arg2 harg2 arg3 harg3 arg4 harg4 arg5 harg5 arg6 harg6 arg7 harg7 (ldMax c i arg1 harg1 arg2 harg2 arg3 harg3 arg4 harg4 arg5 harg5 arg6 harg6 arg7 harg7 x0) (ldSum c i arg1 harg1 arg2 harg2 arg3 harg3 arg4 harg4 arg5 harg5 arg6 harg6 arg7 harg7 x0 fs3) (ldSum c i arg1 harg1 arg2 harg2 arg3 harg3 arg4 harg4 arg5 harg5 arg6 harg6 arg7 harg7 x0 fs3)
          (harg1.unread x0) (arg7.view.writes (Elt F) fs3 (pb2 c i arg1 harg1 arg2 harg2 arg3 harg3 arg4 harg4 arg5 harg5 arg6 harg6 arg7 harg7 x0 fs3).2) (fill6 arg6) k0_t3_loop.trips
        ++ [⟨r0, (k0_pay8 (F := F))⟩]))

theorem ldMax_eq : ldMax c i arg1 harg1 arg2 harg2 arg3 harg3 arg4 harg4 arg5 harg5 arg6 harg6 arg7 harg7 x0 = Fold.runMax x0 k0_t1_loop.trips := by
  unfold ldMax
  rw [View.readAt_eq_ld, View.ld_unit_zero (S := S64x1) hz, View.writes_append,
    read_pb1 _ _ _ _ arg1 harg1 arg2 harg2 arg3 harg3 arg4 harg4 arg5 harg5 arg6 harg6 arg7 harg7 _ _ (read_writes_whole _ _ hz _ _ _), harg1.read_unread]

theorem ldSum_eq : ldSum c i arg1 harg1 arg2 harg2 arg3 harg3 arg4 harg4 arg5 harg5 arg6 harg6 arg7 harg7 x0 fs3 = Fold.runSum x0 (Fold.runMax x0 k0_t1_loop.trips) k0_t1_loop.trips := by
  unfold ldSum pb2
  rw [View.readAt_eq_ld, View.ld_unit_zero (S := S64x1) hz, View.writes_append,
    read_pb2_sum _ _ _ _ arg1 harg1 arg2 harg2 arg3 harg3 arg4 harg4 arg5 harg5 arg6 harg6 arg7 harg7 _ _ _ _ (read_writes_whole _ _ hz _ _ _), harg1.read_unread, ldMax_eq]

theorem ldAcc_eq : ldAcc c i arg1 harg1 arg2 harg2 arg3 harg3 arg4 harg4 arg5 harg5 arg6 harg6 arg7 harg7 x0 fs3
    = Fold.runAcc x0 (Fold.runMax x0 k0_t1_loop.trips)
        (Fold.runSum x0 (Fold.runMax x0 k0_t1_loop.trips) k0_t1_loop.trips) k0_t1_loop.trips := by
  unfold ldAcc
  rw [View.readAt_eq_ld, View.ld_unit_zero (S := S64x1) hz, View.writes_append,
    read_pb3 _ _ _ _ arg1 harg1 arg2 harg2 arg3 harg3 arg4 harg4 arg5 harg5 arg6 harg6 arg7 harg7 _ _ _ _ _ (read_writes_whole _ _ hz _ _ _)
      (fun k => read_pb2_exp _ _ _ _ arg1 harg1 arg2 harg2 arg3 harg3 arg4 harg4 arg5 harg5 arg6 harg6 arg7 harg7 _ _ _ _ k _ k.isLt),
    harg1.read_unread, ldMax_eq, ldSum_eq]

end Contents

/-- The payload of the body's last store, spelt over the buffers' contents as its run leaves them, is `Fold.blockOut`. -/
theorem payload_eq (c : Dev nD) (i : grid0.Coords) (arg1 : Memref sig .tc .vmem S64x32000 .f32) (harg1 : arg1.IsWhole) (arg2 : Memref sig .tc .vmem S64x1 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x32000 .f32) (harg7 : arg7.IsWhole)
    (x0 : Vec F S64x32000 .f32) (x1 : Vec F S64x1 .f32) (fs3 : BufTy.Contents (Elt F) arg7.view.ty) :
    k0_pay1 (k0_pay10 (View.readAt (Elt F) arg2.view r0.toLoadRect (harg2.unread x1))) (ldAcc c i arg1 harg1 arg2 harg2 arg3 harg3 arg4 harg4 arg5 harg5 arg6 harg6 arg7 harg7 x0 fs3)
      = Fold.blockOut x0 x1 := by
  rw [ldAcc_eq, View.readAt_eq_ld, View.ld_unit_zero (S := S64x1) hz, harg2.read_unread]
  rfl

end Cert.KernelIdeal.Block

end
-- ==== Proof.LibSums.lean ====
/-
  Sums regrouped.

  A sum over a range cut into equal blocks is the double sum over blocks and places inside a block; a sum over a range
  whose tail terms vanish is the sum over the head; a sum over the indices of a rank-1, rank-2 or rank-3 array is the
  iterated sum over the coordinates. All of it holds in any additive commutative monoid, so also for the extended reals,
  whose addition is commutative and associative even at the infinities. The last part is about the extended reals alone:
  negation passes through a sum of non-negative terms, the embedding of the reals passes through a sum, and a few facts
  on the sign and the finiteness of sums and squares.
-/
import Mathlib.Algebra.BigOperators.Fin
import Mathlib.Algebra.BigOperators.Group.Finset.Basic
import Mathlib.Algebra.Order.BigOperators.Group.Finset
import Mathlib.Logic.Equiv.Fin.Basic
import Mathlib.Data.EReal.Operations
import Idealize.ShloMosaic.PureOps.Ideal
import Idealize.ShloMosaic.Lib.ValueIdx

open scoped BigOperators

namespace Cert.LibSums

open Idealize.ShloMosaic

section Monoid

variable {M : Type*} [AddCommMonoid M]

/-! ## Blocks and tails -/

/-- `B` blocks of `R` consecutive places: the double sum over (block, place in the block) is the sum over all `B * R` places. -/
theorem sum_blocks (B R : ℕ) (f : ℕ → M) :
    ∑ t : Fin B, ∑ r : Fin R, f (t.val * R + r.val) = ∑ i : Fin (B * R), f i.val := by
  rw [← Equiv.sum_comp (finProdFinEquiv (m := B) (n := R)) (fun i => f i.val), Fintype.sum_prod_type]
  refine Finset.sum_congr rfl fun t _ => Finset.sum_congr rfl fun r _ => ?_
  show f (t.val * R + r.val) = f (r.val + R * t.val)
  rw [Nat.mul_comm, Nat.add_comm]

/-- Five blocks of 3000. -/
theorem sum_blocks_5_3000 (f : ℕ → M) :
    ∑ t : Fin 5, ∑ r : Fin 3000, f (t.val * 3000 + r.val) = ∑ i : Fin 15000, f i.val := sum_blocks 5 3000 f

/-- Twenty-five blocks of 4000. -/
theorem sum_blocks_25_4000 (f : ℕ → M) :
    ∑ t : Fin 25, ∑ r : Fin 4000, f (t.val * 4000 + r.val) = ∑ i : Fin 100000, f i.val := sum_blocks 25 4000 f

/-- A hundred and fifty-eight blocks of 64. -/
theorem sum_blocks_158_64 (f : ℕ → M) :
    ∑ t : Fin 158, ∑ r : Fin 64, f (t.val * 64 + r.val) = ∑ i : Fin 10112, f i.val := sum_blocks 158 64 f

/-- A sum over the first `N` naturals whose terms from `n` on vanish is the sum over the first `n`. -/
theorem sum_fin_le (n N : ℕ) (h : n ≤ N) (f : ℕ → M) (hf : ∀ i, n ≤ i → i < N → f i = 0) :
    ∑ i : Fin N, f i.val = ∑ i : Fin n, f i.val := by
  rw [Fin.sum_univ_eq_sum_range f N, Fin.sum_univ_eq_sum_range f n]
  refine (Finset.sum_subset (Finset.range_subset_range.2 h) fun i hi hni => ?_).symm
  exact hf i (Nat.le_of_not_lt fun hlt => hni (Finset.mem_range.2 hlt)) (Finset.mem_range.1 hi)

/-- Two indices at once: rows in `B` blocks of `R`, columns up to `C`, the function vanishing as soon as the row
    reaches `n` or the column reaches `m`: the triple sum is the double sum over `n` rows and `m` columns. -/
theorem sum_blocks_tail2 (B R C n m : ℕ) (hn : n ≤ B * R) (hm : m ≤ C) (f : ℕ → ℕ → M)
    (hf : ∀ r c, n ≤ r ∨ m ≤ c → f r c = 0) :
    ∑ t : Fin B, ∑ r : Fin R, ∑ c : Fin C, f (t.val * R + r.val) c.val = ∑ r : Fin n, ∑ c : Fin m, f r.val c.val := by
  rw [sum_blocks B R (fun i => ∑ c : Fin C, f i c.val)]
  rw [sum_fin_le n (B * R) hn (fun i => ∑ c : Fin C, f i c.val)
    (fun i hi _ => Finset.sum_eq_zero fun c _ => hf i c.val (Or.inl hi))]
  refine Finset.sum_congr rfl fun r _ => ?_
  exact sum_fin_le m C hm (f r.val) (fun c hc _ => hf r.val c (Or.inr hc))

/-- Rows in 158 blocks of 64 against 10112 columns, of which the first 10000 rows and columns count. -/
theorem sum_158_64_10112 (f : ℕ → ℕ → M) (hf : ∀ r c, 10000 ≤ r ∨ 10000 ≤ c → f r c = 0) :
    ∑ t : Fin 158, ∑ r : Fin 64, ∑ c : Fin 10112, f (t.val * 64 + r.val) c.val
      = ∑ r : Fin 10000, ∑ c : Fin 10000, f r.val c.val :=
  sum_blocks_tail2 158 64 10112 10000 10000 (by decide) (by decide) f hf

end Monoid

section Idx

variable {M : Type*} [AddCommMonoid M]

open Idealize.ShloMosaic.ValueIdx

/-! ## Sums over an array's indices, by coordinates (rank 2 is the library's `ValueIdx.sum_idx2`) -/

/-- A rank-1 index set is its one coordinate's range. -/
def idxEquiv1 {n : ℕ} : (⟨1, ![n]⟩ : Shape).Idx ≃ Fin n where
  toFun i := i 0
  invFun a := ix1 a
  left_inv i := (eq_ix1 i).symm
  right_inv _ := rfl

/-- A sum over the indices of a rank-1 array is the sum over its one coordinate. -/
theorem sum_idx1 {n : ℕ} (g : (⟨1, ![n]⟩ : Shape).Idx → M) : ∑ j, g j = ∑ p : Fin n, g (ix1 p) := by
  rw [← Equiv.sum_comp (idxEquiv1 (n := n)).symm g]
  rfl

/-- A rank-3 index set is the product of its three coordinate ranges. -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over the indices of a rank-3 array is the triple sum over the coordinates. -/
theorem sum_idx3 {n0 n1 n2 : ℕ} (g : (⟨3, ![n0, n1, n2]⟩ : Shape).Idx → M) :
    ∑ j, g j = ∑ p : Fin n0, ∑ q : Fin n1, ∑ r : Fin n2, g (ix3 p q r) := by
  rw [← Equiv.sum_comp (idxEquiv3 (n0 := n0) (n1 := n1) (n2 := n2)).symm g, Fintype.sum_prod_type]
  refine Finset.sum_congr rfl fun p _ => ?_
  rw [Fintype.sum_prod_type]
  rfl

/-- A sum over the indices of a rank-2 array is the double sum over the coordinates (the library's `sum_idx2`, restated
    with the index type written out). -/
theorem sum_idx2' {a b : ℕ} (g : (⟨2, ![a, b]⟩ : Shape).Idx → M) :
    ∑ j : (⟨2, ![a, b]⟩ : Shape).Idx, g j = ∑ p : Fin a, ∑ q : Fin b, g (ix2 p q) := sum_idx2 g

end Idx

/-! ## The extended reals -/

section EReal

variable {ι : Type*}

/-- The embedding of the reals passes through a finite sum. -/
theorem sum_coe (s : Finset ι) (f : ι → ℝ) : ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

/-- A sum none of whose terms is `⊥` is not `⊥`. -/
theorem sum_ne_bot (s : Finset ι) (a : ι → EReal) (h : ∀ i ∈ s, a i ≠ ⊥) : ∑ i ∈ s, a i ≠ ⊥ := by
  classical
  induction s using Finset.induction_on with
  | empty => simp
  | insert i s hi ih =>
    rw [Finset.sum_insert hi]
    exact EReal.add_ne_bot_iff.2 ⟨h i (Finset.mem_insert_self i s), ih fun j hj => h j (Finset.mem_insert_of_mem hj)⟩

/-- A sum none of whose terms is `⊤` is not `⊤` (whatever the other terms: `⊤ + ⊥ = ⊥`). -/
theorem sum_ne_top (s : Finset ι) (a : ι → EReal) (h : ∀ i ∈ s, a i ≠ ⊤) : ∑ i ∈ s, a i ≠ ⊤ := by
  classical
  induction s using Finset.induction_on with
  | empty => simp
  | insert i s hi ih =>
    rw [Finset.sum_insert hi]
    exact EReal.add_ne_top (h i (Finset.mem_insert_self i s)) (ih fun j hj => h j (Finset.mem_insert_of_mem hj))

/-- A sum of reals is not `⊥`. -/
theorem sum_coe_ne_bot (s : Finset ι) (f : ι → ℝ) : ∑ i ∈ s, ((f i : ℝ) : EReal) ≠ ⊥ :=
  sum_ne_bot s _ fun i _ => EReal.coe_ne_bot (f i)

/-- A sum of reals is not `⊤`. -/
theorem sum_coe_ne_top (s : Finset ι) (f : ι → ℝ) : ∑ i ∈ s, ((f i : ℝ) : EReal) ≠ ⊤ :=
  sum_ne_top s _ fun i _ => EReal.coe_ne_top (f i)

/-- A sum of non-negative terms is non-negative. -/
theorem sum_nonneg (s : Finset ι) (a : ι → EReal) (h : ∀ i ∈ s, 0 ≤ a i) : 0 ≤ ∑ i ∈ s, a i :=
  Finset.sum_nonneg h

/-- Each term of a sum of non-negative terms is at most the sum. -/
theorem le_sum_of_nonneg (s : Finset ι) (a : ι → EReal) (h : ∀ i ∈ s, 0 ≤ a i) {i : ι} (hi : i ∈ s) :
    a i ≤ ∑ j ∈ s, a j :=
  Finset.single_le_sum h hi

/-- A sum of non-negative terms one of which is positive is positive. -/
theorem sum_pos (s : Finset ι) (a : ι → EReal) (h : ∀ i ∈ s, 0 ≤ a i) {i : ι} (hi : i ∈ s) (hpos : 0 < a i) :
    0 < ∑ j ∈ s, a j :=
  lt_of_lt_of_le hpos (le_sum_of_nonneg s a h hi)

/-- If a sum of non-negative terms is below `⊤`, so is every term. -/
theorem lt_top_of_sum_lt_top (s : Finset ι) (a : ι → EReal) (h : ∀ i ∈ s, 0 ≤ a i) (hs : ∑ i ∈ s, a i < ⊤) :
    ∀ i ∈ s, a i < ⊤ :=
  fun _ hi => lt_of_le_of_lt (le_sum_of_nonneg s a h hi) hs

/-- Negation passes through a sum of non-negative terms: no partial sum is `⊥`, so no `⊤ + ⊥` is met. -/
theorem neg_sum_of_nonneg (s : Finset ι) (a : ι → EReal) (h : ∀ i ∈ s, 0 ≤ a i) :
    ∑ i ∈ s, -(a i) = -(∑ i ∈ s, a i) := by
  classical
  induction s using Finset.induction_on with
  | empty => simp
  | insert i s hi ih =>
    have hs : ∀ j ∈ s, 0 ≤ a j := fun j hj => h j (Finset.mem_insert_of_mem hj)
    have h1 : a i ≠ ⊥ := ne_of_gt (lt_of_lt_of_le EReal.bot_lt_zero (h i (Finset.mem_insert_self i s)))
    have h2 : ∑ j ∈ s, a j ≠ ⊥ := ne_of_gt (lt_of_lt_of_le EReal.bot_lt_zero (sum_nonneg s a hs))
    rw [Finset.sum_insert hi, Finset.sum_insert hi, ih hs, EReal.neg_add (Or.inl h1) (Or.inr h2), sub_eq_add_neg]

/-- A square is non-negative, also at the infinities (`⊥ * ⊥ = ⊤`). -/
theorem ereal_mul_self_nonneg (x : EReal) : 0 ≤ x * x := by
  induction x with
  | bot => rw [EReal.bot_mul_bot]; exact le_top
  | coe r => rw [← EReal.coe_mul]; exact EReal.coe_nonneg.2 (_root_.mul_self_nonneg r)
  | top => rw [EReal.top_mul_top]; exact le_top

/-- The square of a non-zero extended real is positive. -/
theorem ereal_mul_self_pos (x : EReal) (hx : x ≠ 0) : 0 < x * x := by
  induction x with
  | bot => rw [EReal.bot_mul_bot]; exact EReal.zero_lt_top
  | coe r =>
    rw [← EReal.coe_mul]
    exact EReal.coe_pos.2 (_root_.mul_self_pos.2 fun hr => hx (by rw [hr, EReal.coe_zero]))
  | top => rw [EReal.top_mul_top]; exact EReal.zero_lt_top

/-- A square below `⊤` is the square of a real. -/
theorem ereal_of_mul_self_lt_top (x : EReal) (h : x * x < ⊤) : x ≠ ⊥ ∧ x ≠ ⊤ := by
  refine ⟨fun hx => ?_, fun hx => ?_⟩
  · rw [hx, EReal.bot_mul_bot] at h; exact lt_irrefl _ h
  · rw [hx, EReal.top_mul_top] at h; exact lt_irrefl _ h

end EReal

end Cert.LibSums
-- ==== Proof.RowMath.lean ====
/-
  The mathematics of one row.

  For one row of logits `a : ι → ℝ` write `Z a = ∑ c, exp (a c)`. The focal term of class `c` is
  `(1 - exp (a c) / Z a)² · (a c - log (Z a))`: the square of one minus the softmax probability, times the
  log-probability. Both programs compute this term after first subtracting a shift `m` from every logit (the kernel a
  running maximum started from a large negative number, the reference the row's maximum): the softmax and the
  log-softmax do not depend on the shift, because `∑ c, exp (a c - m) = exp (-m) · Z a`. The kernel multiplies
  `exp (a c - m)` by the reciprocal of the shifted sum and squares by a product; the reference exponentiates the
  shifted log-probability and squares by a real power with exponent two. Over the reals these are one number.

  The second half restates the same on the extended reals, where the programs' operations live: on real arguments each
  operation met here (difference, product, exponential, logarithm of a positive number, quotient by a non-zero number,
  power with exponent two, maximum) is the real operation.
-/
import Mathlib.Analysis.SpecialFunctions.Pow.Real
import Mathlib.Analysis.SpecialFunctions.Log.Basic
import Idealize.ShloMosaic.PureOps.Ideal
import Idealize.ShloMosaic.PureOps.Ideal.Laws
import proofs.«429998_j34471407518073_3_alg».proof.Proof.LibSums

noncomputable section

open scoped BigOperators

namespace Cert.Focal

open Idealize.ShloMosaic

variable {ι : Type*} [Fintype ι]

/-- The partition sum of a row of logits. -/
def Z (a : ι → ℝ) : ℝ := ∑ c, Real.exp (a c)

/-- The focal term of class `c`: (1 - softmax probability)² · log-probability, written without a shift. -/
def term (a : ι → ℝ) (c : ι) : ℝ := (1 - Real.exp (a c) / Z a) ^ 2 * (a c - Real.log (Z a))

/-- The row's focal score: the sum of its terms. -/
def rowFocal (a : ι → ℝ) : ℝ := ∑ c, term a c

theorem Z_pos [Nonempty ι] (a : ι → ℝ) : 0 < Z a :=
  Finset.sum_pos (fun c _ => Real.exp_pos (a c)) Finset.univ_nonempty

/-- The shifted partition sum is the partition sum scaled by `exp (-m)`. -/
theorem sum_exp_shift (a : ι → ℝ) (m : ℝ) : ∑ c, Real.exp (a c - m) = Real.exp (-m) * Z a := by
  unfold Z
  rw [Finset.mul_sum]
  refine Finset.sum_congr rfl fun c _ => ?_
  rw [← Real.exp_add]; congr 1; ring

theorem sum_exp_shift_pos [Nonempty ι] (a : ι → ℝ) (m : ℝ) : 0 < ∑ c, Real.exp (a c - m) :=
  Finset.sum_pos (fun c _ => Real.exp_pos (a c - m)) Finset.univ_nonempty

/-- The logarithm of the shifted partition sum. -/
theorem log_sum_exp_shift [Nonempty ι] (a : ι → ℝ) (m : ℝ) :
    Real.log (∑ c, Real.exp (a c - m)) = Real.log (Z a) - m := by
  rw [sum_exp_shift, Real.log_mul (Real.exp_pos _).ne' (Z_pos a).ne', Real.log_exp]; ring

/-- The shifted log-probability is the log-probability. -/
theorem logp_shift [Nonempty ι] (a : ι → ℝ) (m : ℝ) (c : ι) :
    (a c - m) - Real.log (∑ c', Real.exp (a c' - m)) = a c - Real.log (Z a) := by
  rw [log_sum_exp_shift]; ring

/-- The shifted exponential times the reciprocal of the shifted sum is the softmax probability. -/
theorem prob_shift [Nonempty ι] (a : ι → ℝ) (m : ℝ) (c : ι) :
    Real.exp (a c - m) * (1 / ∑ c', Real.exp (a c' - m)) = Real.exp (a c) / Z a := by
  rw [sum_exp_shift, Real.exp_sub, Real.exp_neg]
  have h1 : Real.exp m ≠ 0 := (Real.exp_pos m).ne'
  have h2 : Z a ≠ 0 := (Z_pos a).ne'
  field_simp

/-- The exponential of the log-probability is the softmax probability. -/
theorem exp_logp [Nonempty ι] (a : ι → ℝ) (c : ι) :
    Real.exp (a c - Real.log (Z a)) = Real.exp (a c) / Z a := by
  rw [Real.exp_sub, Real.exp_log (Z_pos a)]

/-- The term as the kernel computes it: any shift `m`, the probability by a reciprocal, the square by a product. -/
theorem term_by_reciprocal [Nonempty ι] (a : ι → ℝ) (m : ℝ) (c : ι) :
    (1 - Real.exp (a c - m) * (1 / ∑ c', Real.exp (a c' - m))) * (1 - Real.exp (a c - m) * (1 / ∑ c', Real.exp (a c' - m)))
        * ((a c - m) - Real.log (∑ c', Real.exp (a c' - m)))
      = term a c := by
  rw [prob_shift, logp_shift]; unfold term; ring

/-- The term as the reference computes it: any shift `m`, the probability as the exponential of the shifted
    log-probability, the square as the real power with exponent two. -/
theorem term_by_power [Nonempty ι] (a : ι → ℝ) (m : ℝ) (c : ι) :
    Real.rpow (1 - Real.exp ((a c - m) - Real.log (∑ c', Real.exp (a c' - m)))) 2
        * ((a c - m) - Real.log (∑ c', Real.exp (a c' - m)))
      = term a c := by
  rw [logp_shift, exp_logp]; unfold term
  congr 1
  exact Real.rpow_two _

/-! ## The same on the extended reals -/

section EReal

variable [Nonempty ι]

/-- An extended real that is a real number. -/
def IsReal (x : EReal) : Prop := ∃ r : ℝ, x = (r : EReal)

theorem isReal_coe (r : ℝ) : IsReal (r : EReal) := ⟨r, rfl⟩

theorem isReal_of_ne {x : EReal} (h1 : x ≠ ⊤) (h2 : x ≠ ⊥) : IsReal x := ⟨x.toReal, (EReal.coe_toReal h1 h2).symm⟩

theorem IsReal.ne_top {x : EReal} (h : IsReal x) : x ≠ ⊤ := by obtain ⟨r, rfl⟩ := h; exact EReal.coe_ne_top r
theorem IsReal.ne_bot {x : EReal} (h : IsReal x) : x ≠ ⊥ := by obtain ⟨r, rfl⟩ := h; exact EReal.coe_ne_bot r

/-- The larger of two reals is a real. -/
theorem isReal_max {x y : EReal} (hx : IsReal x) (hy : IsReal y) : IsReal (max x y) := by
  rcases max_choice x y with h | h <;> rw [h] <;> assumption

/-- The maximum of a real and `⊥` is the real. -/
theorem isReal_max_bot_left {y : EReal} (hy : IsReal y) : IsReal (max ⊥ y) := by
  rw [max_eq_right bot_le]; exact hy

/-- The running maximum, started from `⊥` or from a real, of a non-empty family of reals is a real. -/
theorem isReal_fold_max {κ : Type*} (s : Finset κ) (hs : s.Nonempty) (g : κ → EReal) (hg : ∀ k, IsReal (g k))
    (b : EReal) (hb : b ≠ ⊤) : IsReal (s.fold max b g) := by
  refine isReal_of_ne (ne_of_lt ?_) (ne_of_gt ?_)
  · rw [Finset.fold_max_lt]
    exact ⟨lt_top_iff_ne_top.2 hb, fun k _ => lt_top_iff_ne_top.2 (hg k).ne_top⟩
  · obtain ⟨k, hk⟩ := hs
    exact lt_of_lt_of_le (bot_lt_iff_ne_bot.2 (hg k).ne_bot) (Finset.le_fold_max (g k) |>.2 (Or.inr ⟨k, hk, le_rfl⟩))

/-- The embedding of the reals passes through the sum of the shifted exponentials. -/
theorem coe_sum_exp_shift (a : ι → ℝ) (m : ℝ) :
    ∑ c, Ideal.exp ((a c : EReal) - (m : EReal)) = ((∑ c, Real.exp (a c - m) : ℝ) : EReal) := by
  rw [← Cert.LibSums.sum_coe]
  refine Finset.sum_congr rfl fun c _ => ?_
  rw [← EReal.coe_sub, Ideal.exp_coe]

/-- The kernel's term on the extended reals, at real logits, a real shift and the real shifted sum. -/
theorem ereal_term_by_reciprocal (a : ι → ℝ) (m : ℝ) (c : ι) :
    ((1 : EReal) - Ideal.exp ((a c : EReal) - (m : EReal)) * Ideal.div 1 ((∑ c', Real.exp (a c' - m) : ℝ) : EReal))
        * ((1 : EReal) - Ideal.exp ((a c : EReal) - (m : EReal)) * Ideal.div 1 ((∑ c', Real.exp (a c' - m) : ℝ) : EReal))
        * (((a c : EReal) - (m : EReal)) - Ideal.log ((∑ c', Real.exp (a c' - m) : ℝ) : EReal))
      = ((term a c : ℝ) : EReal) := by
  have hpos := sum_exp_shift_pos a m
  rw [← term_by_reciprocal a m c, Ideal.div_coe hpos.ne', one_mul, Ideal.log_coe, if_neg (not_le.2 hpos),
    ← EReal.coe_sub, Ideal.exp_coe]
  norm_cast

/-- The reference's term on the extended reals, likewise; the exponent is the real number two. -/
theorem ereal_term_by_power (a : ι → ℝ) (m : ℝ) (c : ι) :
    Ideal.pow ((1 : EReal) - Ideal.exp ((((a c : EReal) - (m : EReal))) - Ideal.log ((∑ c', Real.exp (a c' - m) : ℝ) : EReal)))
          ((2 : ℝ) : EReal)
        * (((a c : EReal) - (m : EReal)) - Ideal.log ((∑ c', Real.exp (a c' - m) : ℝ) : EReal))
      = ((term a c : ℝ) : EReal) := by
  have hpos := sum_exp_shift_pos a m
  rw [← term_by_power a m c, Ideal.log_coe, if_neg (not_le.2 hpos), ← EReal.coe_sub, ← EReal.coe_sub, Ideal.exp_coe,
    ← EReal.coe_one, ← EReal.coe_sub, Ideal.pow_coe_coe]
  norm_cast

end EReal

end Cert.Focal

end
-- ==== Proof.Spec.lean ====
/-
  What both programs compute before the shared class-balanced epilogue.

  `pred` holds 4096 rows of 32000 logits, `target` one class number a row. The per-row score is the row's class number
  (as a real) times the row's focal sum `∑ c, (1 - p c)² · log (p c)` with `p` the row's softmax. On finite logits the
  focal sum is the real number `rowFocal` of the row; the specification reads the logits back as reals (`toReal`), which
  is the identity on finite input and irrelevant elsewhere: both programs are compared to it only under the
  precondition that every logit is finite.
-/
import proofs.«429998_j34471407518073_3_alg».proof.Proof.RowMath
import Idealize.ShloMosaic.Lib.ValueIdx

noncomputable section

namespace Cert.Focal

open Idealize.ShloMosaic Idealize.ShloMosaic.ValueIdx

/-- Row `r` of the logits, read back as real numbers. -/
def rowOf (pred : (⟨2, ![4096, 32000]⟩ : Shape).Idx → EReal) (r : Fin 4096) : Fin 32000 → ℝ :=
  fun c => (pred (ix2 r c)).toReal

/-- The per-row score: the class number of the row, converted to a float, times the row's focal sum. -/
def entSpec (pred : (⟨2, ![4096, 32000]⟩ : Shape).Idx → EReal) (tgt : (⟨1, ![4096]⟩ : Shape).Idx → BitVec 32) :
    (⟨1, ![4096]⟩ : Shape).Idx → EReal :=
  fun i => FloatOps.sitofp (F := Ideal) .f32 (tgt i)
    * ((rowFocal (rowOf pred ⟨(i 0).val, (i 0).isLt⟩) : ℝ) : EReal)

/-- On a finite logit, reading back as a real loses nothing. -/
theorem coe_rowOf (pred : (⟨2, ![4096, 32000]⟩ : Shape).Idx → EReal) (h : ∀ i, IsReal (pred i)) (r : Fin 4096)
    (c : Fin 32000) : ((rowOf pred r c : ℝ) : EReal) = pred (ix2 r c) :=
  EReal.coe_toReal (h _).ne_top (h _).ne_bot

end Cert.Focal

end
-- ==== Proof.KernelArray.lean ====
/-
  From the body's block to the region's result array.

  Grid point `t` of 64 writes back rows `64 t … 64 t + 63` of the 4096×1 result; its body sees rows `64 t …` of the
  logits and of the targets column. So on finite logits the array ends holding, at row `ρ`, the target of row `ρ` times
  the focal sum of row `ρ` of the logits: the specification's per-row score.
-/
import proofs.«429998_j34471407518073_3_alg».proof.Proof.KernelIdealFrame
import proofs.«429998_j34471407518073_3_alg».proof.Proof.Spec
import Idealize.ShloMosaic.Lib.ValueIdx
import Idealize.ShloMosaic.Lib.Pipeline.Value

set_option maxRecDepth 16384

noncomputable section

namespace Cert.KernelIdeal.KArray

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.Focal

/-- What the body leaves in its output block is `Fold.blockOut` of its two input blocks, at any float type. -/
theorem out_eq {F : FTy → Type} [FloatOps F] (c : Dev nD) (i : grid0.Coords) (arg1 : Memref sig .tc .vmem S64x32000 .f32) (harg1 : arg1.IsWhole) (arg2 : Memref sig .tc .vmem S64x1 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x32000 .f32) (harg7 : arg7.IsWhole)
    (x0 : Vec F S64x32000 .f32) (x1 : Vec F S64x1 .f32) :
    GenP.out0_A_2 (F := F) c i arg1 harg1 arg2 harg2 arg3 harg3 arg4 harg4 arg5 harg5 arg6 harg6 arg7 harg7 x0 x1 = Fold.blockOut x0 x1 := by
  unfold GenP.out0_A_2 GenP.kernelRun0_A
  dsimp only
  rw [View.read_writes_junk_eq_canon]
  exact View.canon_unit_zero Trips.hz _ _

variable (m : (ℓ : Loc nD τ sig) → Buf (Elt Ideal) ℓ)

/-- Each window's block index at point `t` is `(t, 0)`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The logits block of point `t`. -/
abbrev xblk (c : Dev nD) (t : Fin cfg0.N) : Vec Ideal S64x32000 .f32 := iblk m c 0 t
/-- The targets block of point `t`. -/
abbrev tblk (c : Dev nD) (t : Fin cfg0.N) : Vec Ideal S64x1 .f32 := iblk m c 1 t
/-- The logits as the region finds them. -/
abbrev xarr (c : Dev nD) : Vec Ideal S4096x32000 .f32 := V m c main_arg0
/-- The targets column as the region finds it. -/
abbrev tarr (c : Dev nD) : Vec Ideal S4096x1 .f32 := V m c main_v1

theorem row_lt (t : Fin cfg0.N) (r : Fin 64) : 64 * t.val + r.val < 4096 := by
  have ht : t.val < 64 := lt_of_lt_of_eq t.isLt N_0
  omega

/-- Row `r` of point `t`'s logits block is row `64 t + r` of the logits. -/
theorem xblk_apply (c : Dev nD) (t : Fin cfg0.N) (r : Fin 64) (k : Fin 32000) :
    xblk m c t (ix2 r k) = xarr m c (ix2 ⟨64 * t.val + r.val, row_lt t r⟩ k) := by
  show V m c main_arg0 (((cfg0.win 0).blk t).view.emb (ix2 r k)) = V m c main_arg0 (ix2 ⟨64 * t.val + r.val, row_lt t r⟩ k)
  obtain ⟨e0, e1, -⟩ := idx_facts t
  refine congrArg _ (funext fun a => Fin.ext ?_)
  match a with
  | ⟨0, _⟩ => show win0_0.index t (0 : Fin 2) * 64 + 1 * r.val = 64 * t.val + r.val; omega
  | ⟨1, _⟩ => show win0_0.index t (1 : Fin 2) * 32000 + 1 * k.val = k.val; omega

/-- Row `r` of point `t`'s targets block is row `64 t + r` of the targets column. -/
theorem tblk_apply (c : Dev nD) (t : Fin cfg0.N) (r : Fin 64) :
    tblk m c t (ix2 r (0 : Fin 1)) = tarr m c (ix2 ⟨64 * t.val + r.val, row_lt t r⟩ (0 : Fin 1)) := by
  show V m c main_v1 (((cfg0.win 1).blk t).view.emb (ix2 r (0 : Fin 1))) = V m c main_v1 (ix2 ⟨64 * t.val + r.val, row_lt t r⟩ (0 : Fin 1))
  obtain ⟨-, -, e0, e1, -⟩ := idx_facts t
  refine congrArg _ (funext fun a => Fin.ext ?_)
  match a with
  | ⟨0, _⟩ => show win0_1.index t (0 : Fin 2) * 64 + 1 * r.val = 64 * t.val + r.val; omega
  | ⟨1, _⟩ => show win0_1.index t (1 : Fin 2) * 1 + 1 * 0 = 0; omega

/-! ## The result array -/

/-- The class numbers. -/
abbrev tgt (c : Dev nD) : IVec S4096 32 := m ((c : Thread nD τ).loc main_arg1)

/-- What the region's result array is to hold: at row `ρ`, the specification's per-row score. -/
def G (c : Dev nD) : Vec Ideal S4096x1 .f32 :=
  fun j => entSpec (xarr m c) (tgt m c) (ix1 ⟨(j 0).val, idx2_lt0 j⟩)

theorem G_apply (c : Dev nD) (ρ : Fin 4096) :
    G m c (ix2 ρ (0 : Fin 1)) = entSpec (xarr m c) (tgt m c) (ix1 ρ) := rfl

/-- Row `r` of point `t`'s result block is row `64 t + r` of the result array. -/
theorem blk2_emb (t : Fin cfg0.N) (r : Fin 64) :
    ((cfg0.win 2).blk t).view.emb (ix2 r (0 : Fin 1)) = ix2 ⟨64 * t.val + r.val, row_lt t r⟩ (0 : Fin 1) := by
  obtain ⟨-, -, -, -, e0, e1⟩ := idx_facts t
  refine funext fun a => Fin.ext ?_
  match a with
  | ⟨0, _⟩ => show win0_2.index t (0 : Fin 2) * 64 + 1 * r.val = 64 * t.val + r.val; omega
  | ⟨1, _⟩ => show win0_2.index t (1 : Fin 2) * 1 + 1 * 0 = 0; omega

section Point

/-- What is asked of the body's arithmetic: on a block of finite logits, row `r` of the output block is the row's
    target times the row's focal sum. -/
def RowLaw : Prop :=
  ∀ (x0 : Vec Ideal S64x32000 .f32) (x1 : Vec Ideal S64x1 .f32), (∀ i, IsReal (x0 i)) → ∀ r : Fin 64,
    Fold.blockOut (F := Ideal) x0 x1 (ix2 r (0 : Fin 1))
      = x1 (ix2 r (0 : Fin 1)) * ((rowFocal (fun k : Fin 32000 => (x0 (ix2 r k)).toReal) : ℝ) : EReal)

/-- What is asked of the host operations before the region: the targets column is the class numbers as floats. -/
def TargetsLaw (c : Dev nD) : Prop :=
  (V m c main_v1 : Vec Ideal S4096x1 .f32) = shapeCast S4096x1 (sitofp (F := Ideal) .f32 (tgt m c)) shapeCasts_S4096_S4096x1

variable (c : Dev nD)

/-- The targets column at row `ρ` is the class number of row `ρ` as a float. -/
theorem tarr_apply (hV1 : TargetsLaw m c) (ρ : Fin 4096) :
    tarr m c (ix2 ρ (0 : Fin 1)) = FloatOps.sitofp (F := Ideal) .f32 (tgt m c (ix1 ρ)) := by
  show V m c main_v1 (ix2 ρ (0 : Fin 1)) = _
  rw [show V m c main_v1 = _ from hV1]
  refine (shapeCast_apply _ shapeCasts_S4096_S4096x1 (ix2 ρ (0 : Fin 1)) (ix1 ρ) ?_).trans rfl
  rw [Shape.rowMajor_val_one, Shape.rowMajor_val_two]
  show ρ.val = ρ.val * 1 + 0
  omega

/-- WHAT POINT `t` WRITES BACK is block `t` of the specification's column. -/
theorem flushed_eq (hrow : RowLaw) (hV1 : TargetsLaw m c) (hfin : ∀ i, IsReal (xarr m c i)) (t : Fin cfg0.N) :
    (GenP.dats m 0 c).flushed 2 t = ((cfg0.win 2).blk t).view.read (Elt Ideal) (G m c) := by
  show (cfg0.win 2).cut (grid0.coords t) ((GenP.dats m 0 c).after 2 t) = _
  rw [GenP.after0_2]
  unfold GenP.outsAt0
  rw [out_eq]
  refine funext fun (y : S64x1.Idx) => ?_
  show Fold.blockOut (F := Ideal) (xblk m c t) (tblk m c t) y = G m c (((cfg0.win 2).blk t).view.emb y)
  obtain ⟨r, q, rfl⟩ : ∃ (r : Fin 64) (q : Fin 1), y = ix2 r q := ⟨y 0, y 1, eq_ix2 y⟩
  obtain rfl : q = 0 := Subsingleton.elim _ _
  rw [hrow _ _ (fun i => ?_) r, blk2_emb, G_apply, tblk_apply, tarr_apply m c hV1]
  · unfold entSpec
    congr 3
    funext k
    show (xblk m c t (ix2 r k)).toReal = (xarr m c (ix2 _ k)).toReal
    rw [xblk_apply]
  · obtain ⟨r', k', rfl⟩ : ∃ (r' : Fin 64) (k' : Fin 32000), i = ix2 r' k' := ⟨i 0, i 1, eq_ix2 i⟩
    rw [xblk_apply]
    exact hfin _

/-- An index of the result array is in point `t`'s block iff each coordinate is in the block's range on its axis. -/
theorem mem_blk (t : Fin cfg0.N) (i : S4096x1.Idx) :
    i ∈ ((cfg0.win 2).blk t).view.set ↔ ∀ a : Fin 2, win0_2.index t a * S64x1.size a ≤ (i a).val ∧ (i a).val < win0_2.index t a * S64x1.size a + S64x1.size a := by
  show i ∈ ((View.whole main_v2).slice (win0_2.rect t)).set ↔ _
  rw [View.set_slice_whole, Rect.mem_set_unit]
  exact Iff.rfl

/-- Every row of the result array is in some point's block. -/
theorem cover (i : S4096x1.Idx) : ∃ t : Fin cfg0.N, (cfg0.win 2).flush t = true ∧ i ∈ ((cfg0.win 2).blk t).view.set := by
  have hi0 : (i 0).val < 4096 := idx2_lt0 i
  have hi1 : (i 1).val < 1 := (i 1).isLt
  let t : Fin cfg0.N := ⟨(i 0).val / 64, lt_of_lt_of_eq (show (i 0).val / 64 < 64 by omega) N_0.symm⟩
  obtain ⟨-, -, -, -, e0, e1⟩ := idx_facts t
  refine ⟨t, flush0_2 t, ?_⟩
  rw [mem_blk]
  intro a
  match a with
  | ⟨0, _⟩ => show win0_2.index t (0 : Fin 2) * 64 ≤ (i 0).val ∧ (i 0).val < win0_2.index t (0 : Fin 2) * 64 + 64; rw [e0]; show (i 0).val / 64 * 64 ≤ _ ∧ _ < (i 0).val / 64 * 64 + 64; omega
  | ⟨1, _⟩ => show win0_2.index t (1 : Fin 2) * 1 ≤ (i 1).val ∧ (i 1).val < win0_2.index t (1 : Fin 2) * 1 + 1; omega

/-- THE RESULT ARRAY after the run: the specification's column of per-row scores. -/
theorem final (hrow : RowLaw) (hV1 : TargetsLaw m c) (hfin : ∀ i, IsReal (xarr m c i)) :
    (GenP.dats m 0 c).arrAt 2 cfg0.N = G m c :=
  (GenP.dats m 0 c).arrAt_eq_of_cover 2 (G m c) (fun t _ => flushed_eq m c hrow hV1 hfin t) cover

end Point

end Cert.KernelIdeal.KArray

end
-- ==== Proof.RefTail.lean ====
/-
  The class-balanced epilogue both programs end with.

  From the per-row scores `ent` and the class numbers `x1`: the number of rows of each class and the sum of the scores
  of each class (two scatter-adds over the 32000 classes), the class weight `(1 - β) / (1 - β ^ count + ε)`, the
  weighted sum over the classes, and the scale `-1 / 4096`. Both programs apply these same operations to their
  per-row scores; nothing below looks inside them.
-/
import proofs.«429998_j34471407518073_3_alg».proof.Proof.Gen.ReferenceIdeal

noncomputable section

namespace Cert.ReferenceIdeal.RefTail

open Idealize.ShloMosaic Idealize.SL.Sem
open Cert.ReferenceIdeal Cert.ReferenceIdeal.Gen

variable {F : FTy → Type} [FloatOps F]

/-- The epilogue: from the per-row scores and the class numbers to the loss. -/
def tail (ent : (⟨S4096, .f32⟩ : BufTy).Contents (Elt F)) (x1 : (⟨S4096, .i32⟩ : BufTy).Contents (Elt F)) :
    (⟨S_, .f32⟩ : BufTy).Contents (Elt F) :=
  mulf (constant S_ .f32 0xB9800000#32)
    (Host.reduceAdd
      (mulf
        (Host.divf (broadcastInDim S32000 ![] bcast_S_S32000 (constant S_ .f32 0x39800000#32))
          (addf
            (subf (broadcastInDim S32000 ![] bcast_S_S32000 (constant S_ .f32 0x3F800000#32))
              (Host.powf (broadcastInDim S32000 ![] bcast_S_S32000 (constant S_ .f32 0x3F7FF000#32))
                (Host.scatterAdd scatter_S32000_S4096x1_S4096_n_0_0_1
                  (broadcastInDim S32000 ![] bcast_S_S32000 (constant S_ .f32 0x00000000#32))
                  (broadcastInDim S4096x1 ![0] bcast_S4096_S4096x1_0 x1)
                  (broadcastInDim S4096 ![] bcast_S_S4096 (constant S_ .f32 0x3F800000#32)))))
            (broadcastInDim S32000 ![] bcast_S_S32000 (constant S_ .f32 0x358637BD#32))))
        (Host.scatterAdd scatter_S32000_S4096x1_S4096_n_0_0_1
          (broadcastInDim S32000 ![] bcast_S_S32000 (constant S_ .f32 0x00000000#32))
          (broadcastInDim S4096x1 ![0] bcast_S4096_S4096x1_0 x1) ent))
      (constant S_ .f32 0x00000000#32) reducesTo_S32000_S_d0 h_S_)

end Cert.ReferenceIdeal.RefTail

end
-- ==== Proof.KernelTail.lean ====
/-
  The host operations around the kernel's region: the targets as the region finds them, and the epilogue of the
  region's result.
-/
import proofs.«429998_j34471407518073_3_alg».proof.Proof.Gen.KernelIdeal.Frame.Runs
import proofs.«429998_j34471407518073_3_alg».proof.Proof.RefTail
import Idealize.ShloMosaic.Lib.Pipeline.Value
import Idealize.ShloMosaic.Lib.StableHlo.Run

set_option maxRecDepth 16384

noncomputable section

namespace Cert.KernelIdeal.KTail

open Idealize.ShloMosaic Idealize.ShloMosaic.TcCoe
open Idealize.SL Idealize.SL.Sem
open Idealize.ShloMosaic.Pipeline (Dat)
open Cert.KernelIdeal Cert.KernelIdeal.Gen

variable {F : FTy → Type} [FloatOps F]
variable (m : (ℓ : Loc nD τ sig) → Buf (Elt F) ℓ)

/-- The second operand's array as the region finds it: the class numbers converted to floats, as a 4096×1 column. -/
theorem V_main_v1 (c : Dev nD) :
    V m c main_v1 = shapeCast S4096x1 (sitofp .f32 (m ((c : Thread nD τ).loc main_arg1))) shapeCasts_S4096_S4096x1 := by
  show StableHlo.after hostOps0 (fun b => m (c, b)) (Proc.devRef .tc main_v1) = _
  after_results
  rfl

/-- The program's result: the shared epilogue of the region's 4096×1 result array read as 4096 scores, and of the class
    numbers. -/
theorem tail_eq (dats : (p : Fin 1) → (c : Dev nD) → Dat τ (Elt F) Unit ℕ (UR sig nD τ) ℕ (cfgs p) c) (c : Dev nD) :
    Pipeline.afterTail₀ cfgs dats 0 (V0 m) [hostOps1] c main_v21
      = Cert.ReferenceIdeal.RefTail.tail (shapeCast S4096 ((dats 0 c).arrAt 2 cfg0.N) shapeCasts_S4096x1_S4096)
          (m ((c : Thread nD τ).loc main_arg1)) := by
  unfold Pipeline.afterTail₀
  show StableHlo.after hostOps1 _ (Proc.devRef .tc main_v21) = _
  after_results_simp
  -- what the region leaves: its result array at the third window's reference, the class numbers as launched
  have h2 : Pipeline.withArrays (cfgs 0).spec c (V0 m c) (fun w => (dats 0 c).arrAt w (cfgs 0).N) (Proc.devRef .tc main_v2)
      = (dats 0 c).arrAt 2 cfg0.N := Pipeline.withArrays_arr spec0 launch0.win.arr_inj c _ _ 2
  have h1 : Pipeline.withArrays (cfgs 0).spec c (V0 m c) (fun w => (dats 0 c).arrAt w (cfgs 0).N) (Proc.devRef .tc main_arg1)
      = m ((c : Thread nD τ).loc main_arg1) :=
    (Pipeline.withArrays_of_ne _ c (V0 m c) _ main_arg1
      (by exact (by decide : ∀ w, Pipeline.arrRef spec0 w ≠ main_arg1))).trans (V_main_arg1 m c)
  rw [h1, h2]
  rfl

end Cert.KernelIdeal.KTail

end
-- ==== Proof.KernelValue.lean ====
/-
  The kernel's program, run: its result is the shared epilogue of the specification's per-row scores.

  The region leaves the specification's column in its 4096×1 result array (on finite logits); the host operations after
  it read the column as 4096 scores and apply the epilogue; the arguments are left as they were.
-/
import proofs.«429998_j34471407518073_3_alg».proof.Proof.KernelArray
import proofs.«429998_j34471407518073_3_alg».proof.Proof.KernelTail

set_option maxRecDepth 16384

noncomputable section

namespace Cert.KernelIdeal.KValue

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.Focal Cert.KernelIdeal.KArray

variable (m : (ℓ : Loc nD τ sig) → Buf (Elt Ideal) ℓ) (ρ : Dev nD → PrngReg)

/-- The specification's column read as 4096 scores is the specification's per-row scores. -/
theorem cast_G (c : Dev nD) :
    shapeCast S4096 (G m c) shapeCasts_S4096x1_S4096 = entSpec (xarr m c) (tgt m c) := by
  funext i
  obtain ⟨r, rfl⟩ : ∃ r : Fin 4096, i = ix1 r := ⟨i 0, eq_ix1 i⟩
  refine (shapeCast_apply (G m c) shapeCasts_S4096x1_S4096 (ix1 r) (ix2 r (0 : Fin 1)) ?_).trans (G_apply m c r)
  rw [Shape.rowMajor_val_one, Shape.rowMajor_val_two]
  show r.val * 1 + 0 = r.val
  omega

/-- THE RUN: on finite logits every execution ends with the result at the epilogue of the specification's per-row
    scores, the arguments unchanged. -/
theorem run (hrow : RowLaw) (hfin : ∀ (c : Dev nD) i, IsReal (m ((c : Thread nD τ).loc main_arg0) i)) :
    θ_run defs (onTc (τ := τ) (main (F := Ideal))) ⟨m, fun _ => 0, ρ⟩ fun r => ∀ c : Dev nD,
      r.2.mem ((c.tc : Thread nD τ).loc main_v21)
          = Cert.ReferenceIdeal.RefTail.tail
              (entSpec (m ((c.tc : Thread nD τ).loc main_arg0)) (m ((c.tc : Thread nD τ).loc main_arg1)))
              (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨?_, ?_, ?_⟩) (GenP.run_main m ρ)
  · have hx : ∀ i, IsReal (xarr m c i) := fun i => by
      show IsReal (V m c main_arg0 i)
      rw [V_main_arg0]; exact hfin c i
    have e1 : r.2.mem ((c.tc : Thread nD τ).loc main_v21)
        = Pipeline.afterTail₀ cfgs (GenP.dats m) 0 (V0 m) [hostOps1] c main_v21 :=
      (h c).2 main_v21 (Pipeline.mem_restRefs_of main_v21 (by decide) (by decide))
    have e3 : (GenP.dats m 0 c).arrAt 2 cfg0.N = G m c := KArray.final m c hrow (KTail.V_main_v1 m c) hx
    have e4 : entSpec (xarr m c) (tgt m c)
        = entSpec (m ((c.tc : Thread nD τ).loc main_arg0)) (m ((c.tc : Thread nD τ).loc main_arg1)) :=
      congrArg (fun x => entSpec x (tgt m c)) (V_main_arg0 m c)
    refine e1.trans ((KTail.tail_eq m (GenP.dats m) c).trans ?_)
    rw [e3, cast_G, e4]
  · exact ((h c).1 0).trans (((GenP.dats m 0 c).arrAt_in 0 rfl _).trans ((GenP.A_eq m c 0).trans (V_main_arg0 m c)))
  · exact ((h c).2 main_arg1 (Pipeline.mem_restRefs_of main_arg1 (by decide) (by decide))).trans (W_main_arg1 m (GenP.dats m) c)

end Cert.KernelIdeal.KValue

end
-- ==== Proof.KernelRows.lean ====
/-
  The kernel's body on the extended reals: each row of its output block is the row's target times the row's focal sum.

  The body's arithmetic is read at one row `r` of its 64. A chunk is columns `6400 k … 6400 k + 6399` of the row; each
  of the body's stores holds, at row `r`, a maximum, a sum or a product of the entries of that row. The first walk leaves
  some real `m` (all that is needed of it), the second the sum over all 32000 columns of `exp (x - m)`, the third the sum
  over all 32000 columns of `(1 - e / L)² (x - m - log L)` with `e = exp (x - m)` and `L` the second walk's sum: the
  row's focal sum, whatever the shift `m` is.
-/
import proofs.«429998_j34471407518073_3_alg».proof.Proof.KernelFold
import proofs.«429998_j34471407518073_3_alg».proof.Proof.RowMath
import Idealize.ShloMosaic.Lib.ValueIdx
import Idealize.ShloMosaic.Lib.Pipeline.Value
import Idealize.ShloMosaic.Lib.IdealHost
import Idealize.ShloMosaic.PureOps.Ideal.Laws

noncomputable section

open scoped BigOperators

namespace Cert.KernelIdeal.Rows

open Idealize.ShloMosaic Idealize.ShloMosaic.ValueIdx Idealize.SL.Sem
open Cert.KernelIdeal Cert.KernelIdeal.Gen Cert.Focal

/-! ### The chunks -/

/-- The walks make five trips. -/
theorem trips_eq : k0_t1_loop.trips = 5 := by decide

/-- Column `6400 k + q`. -/
def col (k : Fin k0_t1_loop.trips) (q : Fin 6400) : Fin 32000 :=
  ⟨6400 * k.val + q.val, by have h1 := k.isLt; have h2 := trips_eq; have h3 := q.isLt; omega⟩

/-- Chunk `k` of a block at `(r, q)` is the block at row `r`, column `6400 k + q`. -/
theorem chunk_apply (x : Vec Ideal S64x32000 .f32) (k : Fin k0_t1_loop.trips) (r : Fin 64) (q : Fin 6400) :
    Fold.chunk x k (ix2 r q) = x (ix2 r (col k q)) := by
  show x ((Rect.unit (s := S64x32000) (k0_off1 k) S64x6400.size (k0_off1_inb k)).idx (ix2 r q)) = _
  congr 1
  funext a
  match a with
  | ⟨0, _⟩ =>
    refine Fin.ext ?_
    show k0_off1 k 0 + 1 * r.val = r.val
    rw [k0_off1_eq]
    show 0 + 1 * r.val = r.val
    omega
  | ⟨1, _⟩ =>
    refine Fin.ext ?_
    show k0_off1 k 1 + 1 * q.val = 6400 * k.val + q.val
    rw [k0_off1_eq]
    show 6400 * k.val + 1 * q.val = 6400 * k.val + q.val
    omega

/-! ### Two layout operations on a column -/

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, c)`, the column's entry of row `i`. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (c : Fin b) :
    broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- The index of row `r` with the dropped column coordinate `q` put back. -/
theorem lift_row (r : Fin 64) (q : Fin 6400) : reduces_S64x6400_S64.lift (ix1 r) q = ix2 r q := by
  funext c
  match c with
  | ⟨0, _⟩ => rfl
  | ⟨1, _⟩ => rfl

/-! ### The body's arithmetic read at one row -/

/-- The targets pass through unchanged. -/
theorem pay10_apply (w : Vec Ideal S64x1 .f32) : k0_pay10 w = w := by
  unfold k0_pay10
  exact shapeCast_self _ _

/-- The output: the product of the two columns. -/
theorem pay1_apply (t a : Vec Ideal S64x1 .f32) (r : Fin 64) :
    k0_pay1 t a (ix2 r (0 : Fin 1)) = t (ix2 r (0 : Fin 1)) * a (ix2 r (0 : Fin 1)) := rfl

/-- The second walk starts from zero. -/
theorem pay4_apply (r : Fin 64) : k0_pay4 (F := Ideal) (ix2 r (0 : Fin 1)) = 0 := by
  unfold k0_pay4
  rw [shapeCast_self]
  exact Ideal.ofBits_zero_f32

/-- The third walk starts from zero. -/
theorem pay8_apply (r : Fin 64) : k0_pay8 (F := Ideal) (ix2 r (0 : Fin 1)) = 0 := by
  unfold k0_pay8
  rw [shapeCast_self]
  exact Ideal.ofBits_zero_f32

/-- The first walk starts from a real number, `-(14791142 · 2¹⁰⁴)`. -/
theorem pay2_isReal (r : Fin 64) : IsReal (k0_pay2 (F := Ideal) (ix2 r (0 : Fin 1))) := by
  unfold k0_pay2
  rw [shapeCast_self]
  show IsReal (Ideal.ofBits .f32 0xFF61B1E6#32)
  have h : Ideal.ofBits .f32 0xFF61B1E6#32 = ((-(14791142 * 2 ^ 104) : ℝ) : EReal) := by
    simp [Ideal.ofBits, Ideal.ieee, -EReal.coe_mul]
  rw [h]
  exact isReal_coe _

/-- A row's maximum over its 6400 columns, from the accumulator's value. -/
theorem rowMax_apply (v : FVec Ideal S64x6400 .f32) (hφ : FKind.Formats .f32)
    (hacc : (0xFF800000#32 : BitVec 32) = 0xFF800000#32) (r : Fin 64) :
    multiReduction (F := Ideal) .maximumf [1] S64 v 0xFF800000#32 reduces_S64x6400_S64 hφ hacc (ix1 r)
      = (Finset.univ : Finset (Fin 6400)).fold max (Ideal.ofBits .f32 0xFF800000#32) (fun q => v (ix2 r q)) := by
  refine (Ideal.multiReduction_maximumf_single v 0xFF800000#32 reduces_S64x6400_S64 hφ hacc (ix1 r)).trans ?_
  have e : (v ∘ reduces_S64x6400_S64.lift (ix1 r)) = fun q : Fin 6400 => v (ix2 r q) :=
    funext fun q => congrArg v (lift_row r q)
  rw [e]
  rfl

/-- A row's sum over its 6400 columns. -/
theorem rowSum_apply (v : FVec Ideal S64x6400 .f32) (hφ : FKind.Formats .f32)
    (hacc : (0x00000000#32 : BitVec 32) = 0x00000000#32) (r : Fin 64) :
    multiReduction (F := Ideal) .add [1] S64 v 0x00000000#32 reduces_S64x6400_S64 hφ hacc (ix1 r)
      = ∑ q : Fin 6400, v (ix2 r q) := by
  refine (Ideal.multiReduction_add_single v 0x00000000#32 reduces_S64x6400_S64 hφ hacc (ix1 r)).trans ?_
  exact Finset.sum_congr rfl fun q _ => congrArg v (lift_row r q)

/-- An exponential at an index is the exponential of the element … -/
theorem exp_apply {s : Shape} {φ : FTy} (a : FVec Ideal s φ) (i : s.Idx) : exp a i = Ideal.exp (a i) := rfl
/-- … and a logarithm the logarithm of the element. -/
theorem log_apply {s : Shape} {φ : FTy} (a : FVec Ideal s φ) (i : s.Idx) : log a i = Ideal.log (a i) := rfl

/-- The shifted exponential: `exp (v - m)`, the shift `m` being the row's entry of a column. -/
theorem pay5_apply (m : Vec Ideal S64x1 .f32) (v : Vec Ideal S64x6400 .f32) (r : Fin 64) (q : Fin 6400) :
    k0_pay5 m v (ix2 r q) = Ideal.exp (v (ix2 r q) - m (ix2 r (0 : Fin 1))) := by
  unfold k0_pay5
  rw [exp_apply, subf_apply, broadcastTo_a1_ab_apply]

/-- What the second walk keeps of a chunk is its shifted exponentials. -/
theorem pay6_apply (m : Vec Ideal S64x1 .f32) (v : Vec Ideal S64x6400 .f32) : k0_pay6 m v = k0_pay5 m v := by
  unfold k0_pay6
  exact shapeCast_self _ _

/-- One step of the first walk: the larger of the running maximum and the chunk's row maximum. -/
theorem pay3_apply (v : Vec Ideal S64x6400 .f32) (w : Vec Ideal S64x1 .f32) (r : Fin 64) :
    k0_pay3 v w (ix2 r (0 : Fin 1))
      = max (w (ix2 r (0 : Fin 1)))
          ((Finset.univ : Finset (Fin 6400)).fold max (Ideal.ofBits .f32 0xFF800000#32) (fun q => v (ix2 r q))) := by
  unfold k0_pay3
  rw [shapeCast_self, maximumf_apply, shapeCast_a_a1_apply, rowMax_apply]

/-- One step of the second walk: the running sum plus the chunk's row sum of shifted exponentials. -/
theorem pay7_apply (m : Vec Ideal S64x1 .f32) (v : Vec Ideal S64x6400 .f32) (s : Vec Ideal S64x1 .f32) (r : Fin 64) :
    k0_pay7 m v s (ix2 r (0 : Fin 1)) = s (ix2 r (0 : Fin 1)) + ∑ q : Fin 6400, k0_pay5 m v (ix2 r q) := by
  unfold k0_pay7
  rw [shapeCast_self, addf_apply, shapeCast_a_a1_apply, rowSum_apply]

/-- One step of the third walk: the running sum plus the chunk's row sum of `(1 - e · (1 / l'))² · ((v - m) - log l)`. -/
theorem pay9_apply (m l l' : Vec Ideal S64x1 .f32) (v e : Vec Ideal S64x6400 .f32) (s : Vec Ideal S64x1 .f32) (r : Fin 64) :
    k0_pay9 m l l' v e s (ix2 r (0 : Fin 1))
      = s (ix2 r (0 : Fin 1)) + ∑ q : Fin 6400,
          ((1 : EReal) - e (ix2 r q) * Ideal.div 1 (l' (ix2 r (0 : Fin 1))))
            * ((1 : EReal) - e (ix2 r q) * Ideal.div 1 (l' (ix2 r (0 : Fin 1))))
            * ((v (ix2 r q) - m (ix2 r (0 : Fin 1))) - Ideal.log (l (ix2 r (0 : Fin 1)))) := by
  unfold k0_pay9
  rw [shapeCast_self, addf_apply, shapeCast_a_a1_apply, rowSum_apply]
  refine congrArg (s (ix2 r (0 : Fin 1)) + ·) (Finset.sum_congr rfl fun q _ => ?_)
  rw [mulf_apply, mulf_apply, subf_apply, subf_apply, subf_apply, mulf_apply, broadcast_apply,
    broadcastTo_a1_ab_apply, broadcastTo_a1_ab_apply, broadcastTo_a1_ab_apply, divf_apply, broadcast_apply, log_apply,
    Ideal.ofBits_def, Ideal.ofBits_one_f32]

/-! ### Five chunks make the row -/

/-- A recurrence that starts at zero and at step `n` adds the sum of `g` over columns `6400 n … 6400 n + 6399` has, after
    five steps, the sum of `g` over all 32000 columns. -/
theorem sum_five_chunks {M : Type*} [AddCommMonoid M] (g : Fin 32000 → M) (u : ℕ → M) (h0 : u 0 = 0)
    (hs : ∀ (n : ℕ) (h : n < k0_t1_loop.trips), u (n + 1) = u n + ∑ q : Fin 6400, g (col ⟨n, h⟩ q)) :
    u 5 = ∑ c, g c := by
  have hu : ∀ n, n ≤ 5 → u n = ∑ k ∈ Finset.range n, ∑ q : Fin 6400,
      (fun i : ℕ => if h : i < 32000 then g ⟨i, h⟩ else 0) (k * 6400 + q.val) := by
    intro n
    induction n with
    | zero => intro _; rw [h0, Finset.sum_range_zero]
    | succ n ih =>
      intro hn
      have hlt : n < k0_t1_loop.trips := by rw [trips_eq]; omega
      rw [hs n hlt, ih (by omega), Finset.sum_range_succ]
      refine congrArg (_ + ·) (Finset.sum_congr rfl fun q _ => ?_)
      have hq := q.isLt
      have hi : n * 6400 + q.val < 32000 := by omega
      show g (col ⟨n, hlt⟩ q) = if h : n * 6400 + q.val < 32000 then g ⟨n * 6400 + q.val, h⟩ else 0
      rw [dif_pos hi]
      exact congrArg g (Fin.ext (by show 6400 * n + q.val = n * 6400 + q.val; omega))
  rw [hu 5 le_rfl, ← Fin.sum_univ_eq_sum_range (fun k => ∑ q : Fin 6400,
      (fun i : ℕ => if h : i < 32000 then g ⟨i, h⟩ else 0) (k * 6400 + q.val)) 5]
  refine (Cert.LibSums.sum_blocks 5 6400 (fun i : ℕ => if h : i < 32000 then g ⟨i, h⟩ else 0)).trans ?_
  exact Finset.sum_congr rfl fun c _ => dif_pos c.isLt

/-! ### The three walks at one row -/

/-- The bit pattern the row maxima fold from denotes `⊥`. -/
theorem ofBits_neg_inf : Ideal.ofBits .f32 0xFF800000#32 = ⊥ := by
  simp [Ideal.ofBits, Ideal.ieee]

/-- Every running maximum of a row of reals is a real. -/
theorem runMax_isReal (x : Vec Ideal S64x32000 .f32) (hx : ∀ i, IsReal (x i)) (r : Fin 64) (n : ℕ) :
    IsReal (Fold.runMax x n (ix2 r (0 : Fin 1))) := by
  induction n with
  | zero => exact pay2_isReal r
  | succ n ih =>
    show IsReal ((if h : n < k0_t1_loop.trips then k0_pay3 (Fold.chunk x ⟨n, h⟩) (Fold.runMax x n)
      else Fold.runMax x n) (ix2 r (0 : Fin 1)))
    split
    · rw [pay3_apply]
      refine isReal_max ih (isReal_fold_max _ Finset.univ_nonempty _ (fun q => ?_) _ ?_)
      · rw [chunk_apply]; exact hx _
      · rw [ofBits_neg_inf]; exact bot_ne_top
    · exact ih

/-- After the five chunks the second walk holds the sum of the shifted exponentials of the row. -/
theorem runSum_five (x : Vec Ideal S64x32000 .f32) (m : Vec Ideal S64x1 .f32) (r : Fin 64) :
    Fold.runSum x m 5 (ix2 r (0 : Fin 1))
      = ∑ c : Fin 32000, Ideal.exp (x (ix2 r c) - m (ix2 r (0 : Fin 1))) := by
  refine sum_five_chunks (fun c => Ideal.exp (x (ix2 r c) - m (ix2 r (0 : Fin 1))))
    (fun n => Fold.runSum x m n (ix2 r (0 : Fin 1))) (pay4_apply r) fun n h => ?_
  show (if h : n < k0_t1_loop.trips then k0_pay7 m (Fold.chunk x ⟨n, h⟩) (Fold.runSum x m n)
    else Fold.runSum x m n) (ix2 r (0 : Fin 1)) = _
  rw [dif_pos h, pay7_apply]
  refine congrArg (_ + ·) (Finset.sum_congr rfl fun q _ => ?_)
  rw [pay5_apply, chunk_apply]

/-- After the five chunks the third walk holds the sum of the row's terms, each written with the shift `m` and the
    second walk's sum `l`. -/
theorem runAcc_five (x : Vec Ideal S64x32000 .f32) (m l : Vec Ideal S64x1 .f32) (r : Fin 64) :
    Fold.runAcc x m l 5 (ix2 r (0 : Fin 1))
      = ∑ c : Fin 32000,
          ((1 : EReal) - Ideal.exp (x (ix2 r c) - m (ix2 r (0 : Fin 1))) * Ideal.div 1 (l (ix2 r (0 : Fin 1))))
            * ((1 : EReal) - Ideal.exp (x (ix2 r c) - m (ix2 r (0 : Fin 1))) * Ideal.div 1 (l (ix2 r (0 : Fin 1))))
            * ((x (ix2 r c) - m (ix2 r (0 : Fin 1))) - Ideal.log (l (ix2 r (0 : Fin 1)))) := by
  refine sum_five_chunks
    (fun c => ((1 : EReal) - Ideal.exp (x (ix2 r c) - m (ix2 r (0 : Fin 1))) * Ideal.div 1 (l (ix2 r (0 : Fin 1))))
      * ((1 : EReal) - Ideal.exp (x (ix2 r c) - m (ix2 r (0 : Fin 1))) * Ideal.div 1 (l (ix2 r (0 : Fin 1))))
      * ((x (ix2 r c) - m (ix2 r (0 : Fin 1))) - Ideal.log (l (ix2 r (0 : Fin 1)))))
    (fun n => Fold.runAcc x m l n (ix2 r (0 : Fin 1))) (pay8_apply r) fun n h => ?_
  show (if h : n < k0_t1_loop.trips then
      k0_pay9 m l l (Fold.chunk x ⟨n, h⟩) (k0_pay6 m (Fold.chunk x ⟨n, h⟩)) (Fold.runAcc x m l n)
    else Fold.runAcc x m l n) (ix2 r (0 : Fin 1)) = _
  rw [dif_pos h, pay9_apply, pay6_apply]
  refine congrArg (_ + ·) (Finset.sum_congr rfl fun q _ => ?_)
  rw [pay5_apply, chunk_apply]

/-! ### The row of the output block -/

/-- Row `r` of the output block, the row's logits given as reals `a`. -/
theorem blockOut_row_of (x0 : Vec Ideal S64x32000 .f32) (x1 : Vec Ideal S64x1 .f32) (hx : ∀ i, IsReal (x0 i))
    (r : Fin 64) (a : Fin 32000 → ℝ) (ha : ∀ c, x0 (ix2 r c) = ((a c : ℝ) : EReal)) :
    Fold.blockOut (F := Ideal) x0 x1 (ix2 r (0 : Fin 1))
      = x1 (ix2 r (0 : Fin 1)) * ((rowFocal a : ℝ) : EReal) := by
  unfold Fold.blockOut
  rw [pay1_apply, pay10_apply, trips_eq]
  refine congrArg (x1 (ix2 r (0 : Fin 1)) * ·) ?_
  obtain ⟨m, hm⟩ := runMax_isReal x0 hx r 5
  have hL : Fold.runSum x0 (Fold.runMax x0 5) 5 (ix2 r (0 : Fin 1))
      = ((∑ c : Fin 32000, Real.exp (a c - m) : ℝ) : EReal) := by
    rw [runSum_five, hm, ← coe_sum_exp_shift]
    exact Finset.sum_congr rfl fun c _ => by rw [ha c]
  rw [runAcc_five, hL, hm]
  refine (Finset.sum_congr rfl fun c _ => ?_).trans (Cert.LibSums.sum_coe Finset.univ (term a))
  rw [ha c]
  exact ereal_term_by_reciprocal a m c

/-- Row `r` of the output block: the target of the row times the focal sum of the row's 32000 logits. -/
theorem blockOut_row (x0 : Vec Ideal S64x32000 .f32) (x1 : Vec Ideal S64x1 .f32)
    (hx : ∀ i, IsReal (x0 i)) (r : Fin 64) :
    Fold.blockOut (F := Ideal) x0 x1 (ix2 r (0 : Fin 1))
      = x1 (ix2 r (0 : Fin 1)) * ((rowFocal (fun c : Fin 32000 => (x0 (ix2 r c)).toReal) : ℝ) : EReal) :=
  blockOut_row_of x0 x1 hx r _ fun c => (EReal.coe_toReal (hx _).ne_top (hx _).ne_bot).symm

end Cert.KernelIdeal.Rows

end
-- ==== Proof.RefRun.lean ====
/-
  The reference's run: every execution ends with the result buffer at the epilogue of the per-row scores, the
  arguments unchanged.
-/
import proofs.«429998_j34471407518073_3_alg».proof.Proof.ReferenceIdealRun
import proofs.«429998_j34471407518073_3_alg».proof.Proof.ReferenceIdealRead
import proofs.«429998_j34471407518073_3_alg».proof.Proof.RefTail
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations in three stretches

The 54 operations, cut where one value is all the next stretch needs: the log-probabilities (the first 15 operations,
ending at `main_v0`), the per-row scores (the next 12, ending at `main_v9`), the epilogue (the last 27, ending at
`main_v27`). Each stretch is read off over an arbitrary valuation, so no stretch sees the term of the one before. -/

/-- The log-probabilities: the row maximum, the shifted logits, the logarithm of the row sum of their exponentials. -/
abbrev ops1 : List (HloOp τ sig (Elt F)) :=
  [ TRef.nullary (TRef.of (T := ⟨S_, .f32⟩) main_call0_cst) (constant S_ .f32 0xFF800000#32),
    TRef.binary (TRef.of (T := ⟨S4096x32000, .f32⟩) main_arg0) (TRef.of (T := ⟨S_, .f32⟩) main_call0_cst) (TRef.of (T := ⟨S4096, .f32⟩) main_call0_v0) (fun x v => Host.reduce FloatOps.maximumf x v reducesTo_S4096x32000_S4096_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S4096, .f32⟩) main_call0_v1) (broadcastInDim S4096 ![] bcast_S_S4096),
    TRef.binary (TRef.of (T := ⟨S4096, .f32⟩) main_call0_v1) (TRef.of (T := ⟨S4096, .f32⟩) main_call0_v0) (TRef.of (T := ⟨S4096, .f32⟩) main_call0_v2) maximumf,
    TRef.unary (TRef.of (T := ⟨S4096, .f32⟩) main_call0_v2) (TRef.of (T := ⟨S4096x1, .f32⟩) main_call0_v3) (broadcastInDim S4096x1 ![0] bcast_S4096_S4096x1_0),
    TRef.unary (TRef.of (T := ⟨S4096x1, .f32⟩) main_call0_v3) (TRef.of (T := ⟨S4096x32000, .f32⟩) main_call0_v4) (broadcastInDim S4096x32000 ![0, 1] bcast_S4096x1_S4096x32000_0_1),
    TRef.binary (TRef.of (T := ⟨S4096x32000, .f32⟩) main_arg0) (TRef.of (T := ⟨S4096x32000, .f32⟩) main_call0_v4) (TRef.of (T := ⟨S4096x32000, .f32⟩) main_call0_v5) subf,
    TRef.unary (TRef.of (T := ⟨S4096x32000, .f32⟩) main_call0_v5) (TRef.of (T := ⟨S4096x32000, .f32⟩) main_call0_v6) Host.exp,
    TRef.nullary (TRef.of (T := ⟨S_, .f32⟩) main_call0_cst_1) (constant S_ .f32 0x00000000#32),
    TRef.binary (TRef.of (T := ⟨S4096x32000, .f32⟩) main_call0_v6) (TRef.of (T := ⟨S_, .f32⟩) main_call0_cst_1) (TRef.of (T := ⟨S4096, .f32⟩) main_call0_v7) (fun x v => Host.reduceAdd x v reducesTo_S4096x32000_S4096_d1 h_S_),
    TRef.unary (TRef.of (T := ⟨S4096, .f32⟩) main_call0_v7) (TRef.of (T := ⟨S4096x1, .f32⟩) main_call0_v8) (broadcastInDim S4096x1 ![0] bcast_S4096_S4096x1_0),
    TRef.unary (TRef.of (T := ⟨S4096x1, .f32⟩) main_call0_v8) (TRef.of (T := ⟨S4096x1, .f32⟩) main_call0_v9) Host.log,
    TRef.unary (TRef.of (T := ⟨S4096x1, .f32⟩) main_call0_v9) (TRef.of (T := ⟨S4096x32000, .f32⟩) main_call0_v10) (broadcastInDim S4096x32000 ![0, 1] bcast_S4096x1_S4096x32000_0_1),
    TRef.binary (TRef.of (T := ⟨S4096x32000, .f32⟩) main_call0_v5) (TRef.of (T := ⟨S4096x32000, .f32⟩) main_call0_v10) (TRef.of (T := ⟨S4096x32000, .f32⟩) main_v0) subf ]

/-- The per-row scores: the focal factor `(1 - p) ^ 2` times the log-probability, summed along each row, times the
    class number read as a float. -/
abbrev ops2 : List (HloOp τ sig (Elt F)) :=
  [ unary main_v0 main_v1 (Host.exp : (⟨S4096x32000, .f32⟩ : BufTy).Contents (Elt F) → (⟨S4096x32000, .f32⟩ : BufTy).Contents (Elt F)),
    nullary main_cst (constant S_ .f32 0x3F800000#32),
    unary main_cst main_v2 (broadcastInDim S4096x32000 ![] bcast_S_S4096x32000 : (⟨S_, .f32⟩ : BufTy).Contents (Elt F) → (⟨S4096x32000, .f32⟩ : BufTy).Contents (Elt F)),
    binary main_v2 main_v1 main_v3 (subf : (⟨S4096x32000, .f32⟩ : BufTy).Contents (Elt F) → (⟨S4096x32000, .f32⟩ : BufTy).Contents (Elt F) → (⟨S4096x32000, .f32⟩ : BufTy).Contents (Elt F)),
    nullary main_cst_0 (constant S_ .f32 0x40000000#32),
    unary main_cst_0 main_v4 (broadcastInDim S4096x32000 ![] bcast_S_S4096x32000 : (⟨S_, .f32⟩ : BufTy).Contents (Elt F) → (⟨S4096x32000, .f32⟩ : BufTy).Contents (Elt F)),
    binary main_v3 main_v4 main_v5 (Host.powf : (⟨S4096x32000, .f32⟩ : BufTy).Contents (Elt F) → (⟨S4096x32000, .f32⟩ : BufTy).Contents (Elt F) → (⟨S4096x32000, .f32⟩ : BufTy).Contents (Elt F)),
    binary main_v5 main_v0 main_v6 (mulf : (⟨S4096x32000, .f32⟩ : BufTy).Contents (Elt F) → (⟨S4096x32000, .f32⟩ : BufTy).Contents (Elt F) → (⟨S4096x32000, .f32⟩ : BufTy).Contents (Elt F)),
    nullary main_cst_1 (constant S_ .f32 0x00000000#32),
    binary main_v6 main_cst_1 main_v7 ((fun x v => Host.reduceAdd x v reducesTo_S4096x32000_S4096_d1 h_S_) : (⟨S4096x32000, .f32⟩ : BufTy).Contents (Elt F) → (⟨S_, .f32⟩ : BufTy).Contents (Elt F) → (⟨S4096, .f32⟩ : BufTy).Contents (Elt F)),
    unary main_arg1 main_v8 (sitofp .f32 : (⟨S4096, .i32⟩ : BufTy).Contents (Elt F) → (⟨S4096, .f32⟩ : BufTy).Contents (Elt F)),
    binary main_v8 main_v7 main_v9 (mulf : (⟨S4096, .f32⟩ : BufTy).Contents (Elt F) → (⟨S4096, .f32⟩ : BufTy).Contents (Elt F) → (⟨S4096, .f32⟩ : BufTy).Contents (Elt F)) ]

/-- The epilogue: the class counts and class sums, the class weights, the weighted sum and its scale. -/
abbrev ops3 : List (HloOp τ sig (Elt F)) :=
  [ nullary main_cst_2 (constant S_ .f32 0x3F800000#32),
    unary main_cst_2 main_v10 (broadcastInDim S4096 ![] bcast_S_S4096 : (⟨S_, .f32⟩ : BufTy).Contents (Elt F) → (⟨S4096, .f32⟩ : BufTy).Contents (Elt F)),
    nullary main_cst_3 (constant S_ .f32 0x00000000#32),
    unary main_cst_3 main_v11 (broadcastInDim S32000 ![] bcast_S_S32000 : (⟨S_, .f32⟩ : BufTy).Contents (Elt F) → (⟨S32000, .f32⟩ : BufTy).Contents (Elt F)),
    unary main_arg1 main_v12 (broadcastInDim S4096x1 ![0] bcast_S4096_S4096x1_0 : (⟨S4096, .i32⟩ : BufTy).Contents (Elt F) → (⟨S4096x1, .i32⟩ : BufTy).Contents (Elt F)),
    ternary main_v11 main_v12 main_v10 main_v13 ((fun x i u => Host.scatterAdd scatter_S32000_S4096x1_S4096_n_0_0_1 x i u) : (⟨S32000, .f32⟩ : BufTy).Contents (Elt F) → (⟨S4096x1, .i32⟩ : BufTy).Contents (Elt F) → (⟨S4096, .f32⟩ : BufTy).Contents (Elt F) → (⟨S32000, .f32⟩ : BufTy).Contents (Elt F)),
    nullary main_cst_4 (constant S_ .f32 0x00000000#32),
    unary main_cst_4 main_v14 (broadcastInDim S32000 ![] bcast_S_S32000 : (⟨S_, .f32⟩ : BufTy).Contents (Elt F) → (⟨S32000, .f32⟩ : BufTy).Contents (Elt F)),
    unary main_arg1 main_v15 (broadcastInDim S4096x1 ![0] bcast_S4096_S4096x1_0 : (⟨S4096, .i32⟩ : BufTy).Contents (Elt F) → (⟨S4096x1, .i32⟩ : BufTy).Contents (Elt F)),
    ternary main_v14 main_v15 main_v9 main_v16 ((fun x i u => Host.scatterAdd scatter_S32000_S4096x1_S4096_n_0_0_1 x i u) : (⟨S32000, .f32⟩ : BufTy).Contents (Elt F) → (⟨S4096x1, .i32⟩ : BufTy).Contents (Elt F) → (⟨S4096, .f32⟩ : BufTy).Contents (Elt F) → (⟨S32000, .f32⟩ : BufTy).Contents (Elt F)),
    nullary main_cst_5 (constant S_ .f32 0x3F7FF000#32),
    unary main_cst_5 main_v17 (broadcastInDim S32000 ![] bcast_S_S32000 : (⟨S_, .f32⟩ : BufTy).Contents (Elt F) → (⟨S32000, .f32⟩ : BufTy).Contents (Elt F)),
    binary main_v17 main_v13 main_v18 (Host.powf : (⟨S32000, .f32⟩ : BufTy).Contents (Elt F) → (⟨S32000, .f32⟩ : BufTy).Contents (Elt F) → (⟨S32000, .f32⟩ : BufTy).Contents (Elt F)),
    nullary main_cst_6 (constant S_ .f32 0x3F800000#32),
    unary main_cst_6 main_v19 (broadcastInDim S32000 ![] bcast_S_S32000 : (⟨S_, .f32⟩ : BufTy).Contents (Elt F) → (⟨S32000, .f32⟩ : BufTy).Contents (Elt F)),
    binary main_v19 main_v18 main_v20 (subf : (⟨S32000, .f32⟩ : BufTy).Contents (Elt F) → (⟨S32000, .f32⟩ : BufTy).Contents (Elt F) → (⟨S32000, .f32⟩ : BufTy).Contents (Elt F)),
    nullary main_cst_7 (constant S_ .f32 0x358637BD#32),
    unary main_cst_7 main_v21 (broadcastInDim S32000 ![] bcast_S_S32000 : (⟨S_, .f32⟩ : BufTy).Contents (Elt F) → (⟨S32000, .f32⟩ : BufTy).Contents (Elt F)),
    binary main_v20 main_v21 main_v22 (addf : (⟨S32000, .f32⟩ : BufTy).Contents (Elt F) → (⟨S32000, .f32⟩ : BufTy).Contents (Elt F) → (⟨S32000, .f32⟩ : BufTy).Contents (Elt F)),
    nullary main_cst_8 (constant S_ .f32 0x39800000#32),
    unary main_cst_8 main_v23 (broadcastInDim S32000 ![] bcast_S_S32000 : (⟨S_, .f32⟩ : BufTy).Contents (Elt F) → (⟨S32000, .f32⟩ : BufTy).Contents (Elt F)),
    binary main_v23 main_v22 main_v24 (Host.divf : (⟨S32000, .f32⟩ : BufTy).Contents (Elt F) → (⟨S32000, .f32⟩ : BufTy).Contents (Elt F) → (⟨S32000, .f32⟩ : BufTy).Contents (Elt F)),
    binary main_v24 main_v16 main_v25 (mulf : (⟨S32000, .f32⟩ : BufTy).Contents (Elt F) → (⟨S32000, .f32⟩ : BufTy).Contents (Elt F) → (⟨S32000, .f32⟩ : BufTy).Contents (Elt F)),
    nullary main_cst_9 (constant S_ .f32 0x00000000#32),
    binary main_v25 main_cst_9 main_v26 ((fun x v => Host.reduceAdd x v reducesTo_S32000_S_d0 h_S_) : (⟨S32000, .f32⟩ : BufTy).Contents (Elt F) → (⟨S_, .f32⟩ : BufTy).Contents (Elt F) → (⟨S_, .f32⟩ : BufTy).Contents (Elt F)),
    nullary main_cst_10 (constant S_ .f32 0xB9800000#32),
    binary main_cst_10 main_v26 main_v27 (mulf : (⟨S_, .f32⟩ : BufTy).Contents (Elt F) → (⟨S_, .f32⟩ : BufTy).Contents (Elt F) → (⟨S_, .f32⟩ : BufTy).Contents (Elt F)) ]

set_option maxRecDepth 8192 in
/-- The list of operations is the three stretches in a row. -/
theorem ops_eq : (ValueP.ops : List (HloOp τ sig (Elt F))) = ops1 ++ (ops2 ++ ops3) := rfl

/-- The contents after all the operations are the contents after the third stretch, run from those after the second,
    run from those after the first. -/
theorem after_ops (V : Valuation τ sig (Elt F)) :
    after (ValueP.ops (F := F)) V = after ops3 (after ops2 (after ops1 V)) := by
  rw [ops_eq, StableHlo.after_append, StableHlo.after_append]

/-! ## The first stretch -/

/-- Contents moved to a typed reference's buffer and back are the contents. -/
theorem ofBuf_toBuf {T : BufTy} (x : TRef sig T) (v : T.Contents (Elt F)) : x.ofBuf (x.toBuf v) = v := by
  obtain ⟨r, h, h1, h2⟩ := x
  subst h
  rfl

set_option maxRecDepth 8192 in
/-- The first stretch leaves the log-probabilities of its first argument at `main_v0`: every intermediate value goes
    to its buffer and comes back unchanged, and what is left is the staged term. -/
theorem stage1 (W : Valuation τ sig (Elt F)) :
    after ops1 W (Proc.devRef .tc main_v0) = ReadP.val_main_v0 (W (Proc.devRef .tc main_arg0)) := by
  after_results_simp
  simp only [ofBuf_toBuf]
  rfl

/-- The first stretch writes neither argument. -/
theorem stage1_arg0 (W : Valuation τ sig (Elt F)) :
    after ops1 W (Proc.devRef .tc main_arg0) = W (Proc.devRef .tc main_arg0) := by
  after_results_simp

theorem stage1_arg1 (W : Valuation τ sig (Elt F)) :
    after ops1 W (Proc.devRef .tc main_arg1) = W (Proc.devRef .tc main_arg1) := by
  after_results_simp

/-! ## The second stretch -/

/-- The per-row scores as a function of the log-probabilities `y0` and the class numbers `x1`:
    `x1 i * ∑ j, (1 - exp (y0 i j)) ^ 2 * y0 i j`. -/
def mid (y0 : (⟨S4096x32000, .f32⟩ : BufTy).Contents (Elt F)) (x1 : (⟨S4096, .i32⟩ : BufTy).Contents (Elt F)) :
    (⟨S4096, .f32⟩ : BufTy).Contents (Elt F) :=
  mulf (sitofp .f32 x1)
    (Host.reduceAdd
      (mulf
        (Host.powf
          (subf (broadcastInDim S4096x32000 ![] bcast_S_S4096x32000 (constant S_ .f32 0x3F800000#32)) (Host.exp y0))
          (broadcastInDim S4096x32000 ![] bcast_S_S4096x32000 (constant S_ .f32 0x40000000#32)))
        y0)
      (constant S_ .f32 0x00000000#32) reducesTo_S4096x32000_S4096_d1 h_S_)

/-- The staged per-row scores look at the first argument only through its log-probabilities. -/
theorem mid_eq (x0 : (⟨S4096x32000, .f32⟩ : BufTy).Contents (Elt F)) (x1 : (⟨S4096, .i32⟩ : BufTy).Contents (Elt F)) :
    ReadP.val_main_v9 x0 x1 = mid (ReadP.val_main_v0 x0) x1 := rfl

/-- The second stretch leaves at `main_v9` the per-row scores of what it finds at `main_v0` and `main_arg1`. -/
theorem stage2 (W : Valuation τ sig (Elt F)) :
    after ops2 W (Proc.devRef .tc main_v9)
      = mid (W (Proc.devRef .tc main_v0)) (W (Proc.devRef .tc main_arg1)) := by
  after_results_simp
  rfl

/-- The second stretch writes neither argument. -/
theorem stage2_arg0 (W : Valuation τ sig (Elt F)) :
    after ops2 W (Proc.devRef .tc main_arg0) = W (Proc.devRef .tc main_arg0) := by
  after_results_simp

theorem stage2_arg1 (W : Valuation τ sig (Elt F)) :
    after ops2 W (Proc.devRef .tc main_arg1) = W (Proc.devRef .tc main_arg1) := by
  after_results_simp

/-! ## The third stretch -/

/-- The third stretch leaves at `main_v27` the epilogue of what it finds at `main_v9` and `main_arg1`. -/
theorem stage3 (W : Valuation τ sig (Elt F)) :
    after ops3 W (Proc.devRef .tc main_v27)
      = RefTail.tail (W (Proc.devRef .tc main_v9)) (W (Proc.devRef .tc main_arg1)) := by
  after_results_simp
  rfl

/-- The third stretch writes neither argument. -/
theorem stage3_arg0 (W : Valuation τ sig (Elt F)) :
    after ops3 W (Proc.devRef .tc main_arg0) = W (Proc.devRef .tc main_arg0) := by
  after_results_simp

theorem stage3_arg1 (W : Valuation τ sig (Elt F)) :
    after ops3 W (Proc.devRef .tc main_arg1) = W (Proc.devRef .tc main_arg1) := by
  after_results_simp

/-! ## The whole line -/

/-- After all the operations the result buffer holds the epilogue of the staged per-row scores of the arguments. -/
theorem after_v27 (V : Valuation τ sig (Elt F)) :
    after (ValueP.ops (F := F)) V (Proc.devRef .tc main_v27)
      = RefTail.tail (ReadP.val_main_v9 (V (Proc.devRef .tc main_arg0)) (V (Proc.devRef .tc main_arg1)))
          (V (Proc.devRef .tc main_arg1)) := by
  rw [after_ops, stage3, stage2, stage2_arg1, stage1, stage1_arg1, mid_eq]

/-- No operation writes an argument. -/
theorem after_arg0 (V : Valuation τ sig (Elt F)) :
    after (ValueP.ops (F := F)) V (Proc.devRef .tc main_arg0) = V (Proc.devRef .tc main_arg0) := by
  rw [after_ops, stage3_arg0, stage2_arg0, stage1_arg0]

theorem after_arg1 (V : Valuation τ sig (Elt F)) :
    after (ValueP.ops (F := F)) V (Proc.devRef .tc main_arg1) = V (Proc.devRef .tc main_arg1) := by
  rw [after_ops, stage3_arg1, stage2_arg1, stage1_arg1]

set_option maxRecDepth 8192 in
/-- On every device, from any memory with zero counters: every weakly fair execution of the reference terminates with
    its result at the epilogue of its per-row scores and its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v27)
          = RefTail.tail (ReadP.val_main_v9 (F := F) (m ((c.tc : Thread nD τ).loc main_arg0)) (m ((c.tc : Thread nD τ).loc main_arg1)))
              (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v27).trans (after_v27 _),
      (h c main_arg0).trans (after_arg0 _),
      (h c main_arg1).trans (after_arg1 _)⟩)
    (run_seq ValueP.scopedRefs_eq ValueP.scopedSems_eq defs main (fun _ => ValueP.ops) ValueP.main_eq (fun _ => ValueP.ops_sub) m ρ)

end Cert.ReferenceIdeal.RefRun

end
-- ==== Proof.RefValue.lean ====
/-
  The reference's value: its per-row scores are the specification's, and its result is the shared epilogue of them.
-/
import proofs.«429998_j34471407518073_3_alg».proof.Proof.ReferenceIdealRun
import proofs.«429998_j34471407518073_3_alg».proof.Proof.ReferenceIdealRead
import proofs.«429998_j34471407518073_3_alg».proof.Proof.Spec
import proofs.«429998_j34471407518073_3_alg».proof.Proof.RefTail
import Idealize.ShloMosaic.Lib.ValueIdx
import Idealize.ShloMosaic.Lib.IdealHost
import Idealize.ShloMosaic.PureOps.Reduce
import Idealize.ShloMosaic.PureOps.Ideal.Laws

noncomputable section

namespace Cert.ReferenceIdeal.RefValue

open Idealize.ShloMosaic Idealize.ShloMosaic.ValueIdx Idealize.SL.Sem
open Cert.ReferenceIdeal Cert.ReferenceIdeal.Gen Cert.ReferenceIdeal.ReadP Cert.Focal

variable {F : FTy → Type} [FloatOps F]

/-- The reference's result is the epilogue of its per-row scores. -/
theorem val_eq_tail (x0 : (⟨S4096x32000, .f32⟩ : BufTy).Contents (Elt F)) (x1 : (⟨S4096, .i32⟩ : BufTy).Contents (Elt F)) :
    val_main_v27 (F := F) x0 x1 = RefTail.tail (val_main_v9 (F := F) x0 x1) x1 := by
  unfold val_main_v27 val_main_v26 val_main_v25 val_main_v24 val_main_v23 val_main_v22 val_main_v21 val_main_v20
    val_main_v19 val_main_v18 val_main_v17 val_main_v16 val_main_v15 val_main_v14 val_main_v13 val_main_v12 val_main_v11
    val_main_v10 val_main_cst_10 val_main_cst_9 val_main_cst_8 val_main_cst_7 val_main_cst_6 val_main_cst_5
    val_main_cst_4 val_main_cst_3 val_main_cst_2 RefTail.tail
  rfl

/-! ## The literals -/

/-- The word of the exponent is the real number two. -/
theorem ofBits_two_f32 : Ideal.ofBits .f32 0x40000000#32 = ((2 : ℝ) : EReal) := by
  simp [Ideal.ofBits, Ideal.ieee, -EReal.coe_mul]; norm_num

/-- The word the row maximum starts from is −∞. -/
theorem ofBits_neg_inf_f32 : Ideal.ofBits .f32 0xFF800000#32 = ⊥ := by
  simp [Ideal.ofBits, Ideal.ieee]

/-! ## The shift: the row's maximum, a real number on finite logits -/

/-- On finite logits the shift of row `r` (the larger of −∞ and the row's maximum) is a real number. -/
theorem isReal_shift (x0 : (⟨S4096x32000, .f32⟩ : BufTy).Contents (Elt Ideal)) (hx : ∀ i, IsReal (x0 i)) (r : Fin 4096) :
    IsReal (val_main_call0_v2 (F := Ideal) x0 (ix1 r)) := by
  rw [val_main_call0_v2_apply, val_main_call0_v1_apply, val_main_call0_cst_0_apply, Ideal.maximumf_def, Ideal.ofBits_def,
    ofBits_neg_inf_f32]
  refine isReal_max_bot_left ?_
  have hfold := Host.reduce_eq_fold_single (FloatOps.maximumf (F := Ideal) (φ := .f32)) x0
    (val_main_call0_cst (F := Ideal)) reducesTo_S4096x32000_S4096_d1 (by decide) h_S_ (ix1 r)
  refine (congrArg IsReal hfold).mpr ?_
  refine isReal_fold_max _ ⟨⟨0, by decide⟩, Finset.mem_univ _⟩ _ (fun k => hx _) _ ?_
  rw [val_main_call0_cst_apply, Ideal.ofBits_def, ofBits_neg_inf_f32]
  exact bot_ne_top

/-- The shift of row `r`, as a real number. -/
def shift (x0 : (⟨S4096x32000, .f32⟩ : BufTy).Contents (Elt Ideal)) (r : Fin 4096) : ℝ :=
  (val_main_call0_v2 (F := Ideal) x0 (ix1 r) : EReal).toReal

theorem coe_shift (x0 : (⟨S4096x32000, .f32⟩ : BufTy).Contents (Elt Ideal)) (hx : ∀ i, IsReal (x0 i)) (r : Fin 4096) :
    ((shift x0 r : ℝ) : EReal) = val_main_call0_v2 (F := Ideal) x0 (ix1 r) :=
  EReal.coe_toReal (isReal_shift x0 hx r).ne_top (isReal_shift x0 hx r).ne_bot

/-! ## The stages of the log-softmax and of the focal term, read at (r, c) -/

/-- The shifted logit. -/
theorem shifted_apply (x0 : (⟨S4096x32000, .f32⟩ : BufTy).Contents (Elt Ideal)) (hx : ∀ i, IsReal (x0 i)) (r : Fin 4096)
    (c : Fin 32000) :
    val_main_call0_v5 (F := Ideal) x0 (ix2 r c) = ((rowOf x0 r c : ℝ) : EReal) - ((shift x0 r : ℝ) : EReal) := by
  have e : idx_main_call0_v3 (idx_main_call0_v4 (ix2 r c)) = ix1 r :=
    funext fun a => Fin.ext (by match a with | ⟨0, _⟩ => rfl)
  rw [val_main_call0_v5_apply, val_main_call0_v4_apply, val_main_call0_v3_apply, e, Ideal.subf_def, coe_rowOf x0 hx,
    coe_shift x0 hx]

/-- The row's sum of the exponentials of the shifted logits. -/
theorem sumexp_apply (x0 : (⟨S4096x32000, .f32⟩ : BufTy).Contents (Elt Ideal)) (hx : ∀ i, IsReal (x0 i)) (r : Fin 4096) :
    val_main_call0_v7 (F := Ideal) x0 (ix1 r)
      = ((∑ c : Fin 32000, Real.exp (rowOf x0 r c - shift x0 r) : ℝ) : EReal) := by
  rw [val_main_call0_v7_apply, val_main_call0_cst_1_apply, Ideal.ofBits_def, Ideal.ofBits_zero_f32, zero_add,
    ← coe_sum_exp_shift]
  refine Finset.sum_congr rfl fun k _ => ?_
  have e : idx_main_call0_v7 (ix1 r) k = ix2 r k :=
    funext fun a => Fin.ext (by match a with | ⟨0, _⟩ => rfl | ⟨1, _⟩ => rfl)
  rw [e, val_main_call0_v6_apply, Ideal.hostUnary_exp_def, shifted_apply x0 hx]

/-- The log-probability: the shifted logit less the logarithm of the row's sum. -/
theorem logp_apply (x0 : (⟨S4096x32000, .f32⟩ : BufTy).Contents (Elt Ideal)) (hx : ∀ i, IsReal (x0 i)) (r : Fin 4096)
    (c : Fin 32000) :
    val_main_v0 (F := Ideal) x0 (ix2 r c)
      = (((rowOf x0 r c : ℝ) : EReal) - ((shift x0 r : ℝ) : EReal))
          - Ideal.log ((∑ c' : Fin 32000, Real.exp (rowOf x0 r c' - shift x0 r) : ℝ) : EReal) := by
  have e : idx_main_call0_v8 (idx_main_call0_v10 (ix2 r c)) = ix1 r :=
    funext fun a => Fin.ext (by match a with | ⟨0, _⟩ => rfl)
  rw [val_main_v0_apply, val_main_call0_v10_apply, val_main_call0_v9_apply, val_main_call0_v8_apply, e,
    sumexp_apply x0 hx, shifted_apply x0 hx, Ideal.subf_def, Ideal.hostUnary_log_def]

/-- The focal term of class `c` in row `r`. -/
theorem term_apply (x0 : (⟨S4096x32000, .f32⟩ : BufTy).Contents (Elt Ideal)) (hx : ∀ i, IsReal (x0 i)) (r : Fin 4096)
    (c : Fin 32000) :
    val_main_v6 (F := Ideal) x0 (ix2 r c) = ((term (rowOf x0 r) c : ℝ) : EReal) := by
  rw [val_main_v6_apply, val_main_v5_apply, val_main_v3_apply, val_main_v2_apply, val_main_cst_apply, val_main_v4_apply,
    val_main_cst_0_apply, val_main_v1_apply, logp_apply x0 hx, Ideal.mulf_def, Ideal.hostPowf_def, Ideal.subf_def,
    Ideal.hostUnary_exp_def, Ideal.ofBits_def, Ideal.ofBits_def, Ideal.ofBits_one_f32, ofBits_two_f32]
  exact ereal_term_by_power (rowOf x0 r) (shift x0 r) c

/-- The row's sum of its focal terms. -/
theorem rowsum_apply (x0 : (⟨S4096x32000, .f32⟩ : BufTy).Contents (Elt Ideal)) (hx : ∀ i, IsReal (x0 i)) (r : Fin 4096) :
    val_main_v7 (F := Ideal) x0 (ix1 r) = ((rowFocal (rowOf x0 r) : ℝ) : EReal) := by
  rw [val_main_v7_apply, val_main_cst_1_apply, Ideal.ofBits_def, Ideal.ofBits_zero_f32, zero_add]
  unfold rowFocal
  rw [← Cert.LibSums.sum_coe]
  refine Finset.sum_congr rfl fun k _ => ?_
  have e : idx_main_v7 (ix1 r) k = ix2 r k :=
    funext fun a => Fin.ext (by match a with | ⟨0, _⟩ => rfl | ⟨1, _⟩ => rfl)
  rw [e, term_apply x0 hx]

/-- On finite logits the reference's per-row scores are the specification's. -/
theorem ent_eq_spec (x0 : (⟨S4096x32000, .f32⟩ : BufTy).Contents (Elt Ideal)) (x1 : (⟨S4096, .i32⟩ : BufTy).Contents (Elt Ideal))
    (hx : ∀ i, IsReal (x0 i)) :
    val_main_v9 (F := Ideal) x0 x1 = entSpec x0 x1 := by
  funext i
  obtain ⟨r, rfl⟩ : ∃ r : Fin 4096, i = ix1 r := ⟨i 0, eq_ix1 i⟩
  rw [val_main_v9_apply, val_main_v8_apply, rowsum_apply x0 hx r, Ideal.mulf_def]
  rfl

end Cert.ReferenceIdeal.RefValue

end
-- ==== Proof.Finite.lean ====
/-
  The precondition read: every logit is a real number.

  The precondition is the conjunction, over all indices, of the comparison |x| < +∞. A conjunction
  that is true has every conjunct true, so |x i| < +∞ at each index; and on the extended reals
  |x| = max x (-x) is +∞ at both infinities, so x i is neither of them.
-/
import proofs.«429998_j34471407518073_3_alg».proof.Pre_finite_inputs
import proofs.«429998_j34471407518073_3_alg».proof.Proof.Gen.Pre_finite_inputs
import proofs.«429998_j34471407518073_3_alg».proof.Proof.RowMath
import Idealize.ShloMosaic.Lib.ValueIdx
import Idealize.ShloMosaic.Lib.ReduceAll

noncomputable section

namespace Cert.Finite

open Idealize.ShloMosaic Idealize.ShloMosaic.ValueIdx Idealize.SL.Sem Cert.Focal

/-- The rank-0 shape has exactly one index. -/
instance subsingleton_scalarIdx : Subsingleton Cert.Pre_finite_inputs.S_.Idx :=
  ⟨fun _ _ => funext fun d => d.elim0⟩

/-- The pattern with all exponent bits set and no fraction bit denotes +∞. -/
theorem ofBits_inf : Ideal.ofBits .f32 0x7F800000#32 = (⊤ : EReal) := by
  simp [Ideal.ofBits, Ideal.ieee]

/-- An extended real whose absolute value max x (-x) is below +∞ is a real number. -/
theorem isReal_of_abs_lt_top {x : EReal} (hlt : max x (-x) < ⊤) : IsReal x := by
  refine isReal_of_ne ?_ ?_
  · intro hx
    rw [hx] at hlt
    simp at hlt
  · intro hx
    rw [hx] at hlt
    simp at hlt

/-- Where the precondition's predicate is all ones, every logit is finite. -/
theorem isReal_of_pre (x0 : FVec Ideal Cert.Pre_finite_inputs.S4096x32000 .f32)
    (x1 : IVec Cert.Pre_finite_inputs.S4096 32)
    (h : Cert.Pre_finite_inputs.fn (F := Ideal) x0 x1 = fun _ => 1#1) :
    ∀ i, IsReal (x0 i) := by
  intro i
  -- the conjunction over all indices is 1 at its single result index
  have h0 := congrFun h ValueIdx.ix0
  dsimp only [Cert.Pre_finite_inputs.fn] at h0
  -- hence the conjunct at i is 1
  have hi := Host.reduce_andi_all _ _ _ _ _ h0 i
  -- that conjunct is the comparison max (x0 i) (-(x0 i)) < +∞ on the extended reals
  have hi' : Ideal.cmp .olt (max (x0 i) (-(x0 i))) (Ideal.ofBits .f32 0x7F800000#32) = 1#1 := hi
  rw [ofBits_inf] at hi'
  have hlt : max (x0 i) (-(x0 i)) < ⊤ := by
    by_contra hn
    simp [Ideal.cmp, hn] at hi'
  exact isReal_of_abs_lt_top hlt

end Cert.Finite

end
-- ==== Proof.lean ====
/-
  The certificate: the kernel and its jnp reference compute the same class-balanced focal loss.

  Per row of 32000 logits both programs compute the focal sum `∑ c, (1 - p c)² · log (p c)`, `p` the row's softmax:
  the reference by jax's log-softmax (shifted by the row's maximum), a real power with exponent two and one sum over
  the row; the kernel, 64 rows at a time, in three walks over chunks of 6400 columns — a running maximum started from
  −3·10³⁸, the sum of the shifted exponentials, the sum of the terms with the probability taken as a product with the
  sum's reciprocal and the square as a product. The softmax and its logarithm do not depend on the shift, so on finite
  logits the two sums are one real number (Proof/RowMath.lean); the row's class number, converted to a float,
  multiplies it on both sides; and both programs end with the same epilogue of the per-row scores (Proof/RefTail.lean).
  Finiteness of the logits is the precondition (Proof/Finite.lean).

  The frames of the two kernel programs are the generated frame certificates over a run of the body whose result is
  given as a function of the input blocks (Proof/KernelIdealRunA.lean, Proof/KernelRunA.lean); the reference's frame is
  its run with the result dropped (Proof/RefRun.lean). The ideal pass rewrote nothing, so `preserves` asks nothing.
-/
import proofs.«429998_j34471407518073_3_alg».proof.Defs
import proofs.«429998_j34471407518073_3_alg».proof.Proof.KernelFrame
import proofs.«429998_j34471407518073_3_alg».proof.Proof.KernelValue
import proofs.«429998_j34471407518073_3_alg».proof.Proof.KernelRows
import proofs.«429998_j34471407518073_3_alg».proof.Proof.RefRun
import proofs.«429998_j34471407518073_3_alg».proof.Proof.RefValue
import proofs.«429998_j34471407518073_3_alg».proof.Proof.Finite
import proofs.«429998_j34471407518073_3_alg».proof.Proof.Gen.Kernel
import proofs.«429998_j34471407518073_3_alg».proof.Proof.Gen.KernelIdeal
import proofs.«429998_j34471407518073_3_alg».proof.Proof.Gen.ReferenceIdeal
import proofs.«429998_j34471407518073_3_alg».proof.Proof.Gen.Pre_finite_inputs
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2) (Cert.ReferenceIdeal.RefRun.run (F := Ideal) m ρ)

/-- On finite logits the kernel's result and the reference's are the shared epilogue of one column of per-row scores. -/
theorem algebraic : Cert.algebraic_KernelIdeal_ReferenceIdeal := by
  intro m ρ m' ρ' hpre hagree
  have hfin : ∀ (c : Dev Cert.KernelIdeal.nD) i,
      Cert.Focal.IsReal (m ((c : Thread Cert.KernelIdeal.nD Cert.KernelIdeal.τ).loc Cert.KernelIdeal.main_arg0) i) :=
    fun c => Cert.Finite.isReal_of_pre _ _ (hpre c)
  refine ⟨_, Cert.KernelIdeal.KValue.run m ρ Cert.KernelIdeal.Rows.blockOut_row hfin, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2, Cert.ReferenceIdeal.RefValue.ent_eq_spec _ _ (hfin c)]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
